-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S600000 : Shape := ⟨1, ![600000]⟩
abbrev S100000x128 : Shape := ⟨2, ![100000, 128]⟩
abbrev S200x128 : Shape := ⟨2, ![200, 128]⟩
abbrev S128x128 : Shape := ⟨2, ![128, 128]⟩
abbrev S_ : Shape := ⟨0, ![]⟩
abbrev S1x600000 : Shape := ⟨2, ![1, 600000]⟩

class Facts : Prop where
  bcast_S_S600000 : S_.BroadcastsInDim S600000 (![] : Fin 0 → Fin S600000.rank)
  reducesTo_S600000_S_d0 : S600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S200x128 : S_.BroadcastsInDim S200x128 (![] : Fin 0 → Fin S200x128.rank)
  reducesTo_S200x128_S_d0_1 : S200x128.ReducesTo [0, 1] S_
  bcast_S_S128x128 : S_.BroadcastsInDim S128x128 (![] : Fin 0 → Fin S128x128.rank)
  reducesTo_S128x128_S_d0_1 : S128x128.ReducesTo [0, 1] S_
  slices_S2x600000_S1x600000_0_0 : S2x600000.Slices ![0, 0] S1x600000
  shapeCasts_S1x600000_S600000 : S1x600000.ShapeCasts S600000

variable [Facts]

def fn_part3 {F : FTy → Type} [FloatOps F] (main_arg1 : IVec S600000 32) (main_v43 : IVec S_ 1) (main_v47 : IVec S600000 1) (main_v51 : IVec S600000 1) : IVec S_ 1 :=
  let main_v52 : IVec S600000 1 := andi main_v47 main_v51
  let main_c_18 : IVec S_ 1 := constantI S_ 1 1#1
  let main_v53 : IVec S_ 1 := (fun x v => Host.reduce IntOp.andi x v reducesTo_S600000_S_d0 h_S_) main_v52 main_c_18
  let main_v54 : IVec S_ 1 := andi main_v43 main_v53
  let main_c_19 : IVec S_ 32 := constantI S_ 32 4294967096#32
  let main_v55 : IVec S600000 32 := broadcastInDim S600000 ![] bcast_S_S600000 main_c_19
  let main_v56 : IVec S600000 1 := cmpi .sge main_arg1 main_v55
  let main_c_20 : IVec S_ 32 := constantI S_ 32 200#32
  let main_v57 : IVec S600000 32 := broadcastInDim S600000 ![] bcast_S_S600000 main_c_20
  let main_v58 : IVec S600000 1 := cmpi .slt main_arg1 main_v57
  let main_v59 : IVec S600000 1 := andi main_v56 main_v58
  let main_c_21 : IVec S_ 1 := constantI S_ 1 1#1
  let main_v60 : IVec S_ 1 := (fun x v => Host.reduce IntOp.andi x v reducesTo_S600000_S_d0 h_S_) main_v59 main_c_21
  let main_v61 : IVec S_ 1 := andi main_v54 main_v60
  main_v61

def fn_part2 {F : FTy → Type} [FloatOps F] (main_arg0 : IVec S2x600000 32) (main_arg1 : IVec S600000 32) (main_arg9 : FVec F S128x128 .f32) (main_arg10 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : IVec S1x600000 32 := (extractStridedSlice S1x600000 ![0, 0] · slices_S2x600000_S1x600000_0_0) main_arg0
  let main_v45 : IVec S600000 32 := shapeCast S600000 main_v44 shapeCasts_S1x600000_S600000
  let main_c_16 : IVec S_ 32 := constantI S_ 32 4294867296#32
  let main_v46 : IVec S600000 32 := broadcastInDim S600000 ![] bcast_S_S600000 main_c_16
  let main_v47 : IVec S600000 1 := cmpi .sge main_v45 main_v46
  let main_v48 : IVec S1x600000 32 := (extractStridedSlice S1x600000 ![0, 0] · slices_S2x600000_S1x600000_0_0) main_arg0
  let main_v49 : IVec S600000 32 := shapeCast S600000 main_v48 shapeCasts_S1x600000_S600000
  let main_c_17 : IVec S_ 32 := constantI S_ 32 100000#32
  let main_v50 : IVec S600000 32 := broadcastInDim S600000 ![] bcast_S_S600000 main_c_17
  let main_v51 : IVec S600000 1 := cmpi .slt main_v49 main_v50
  fn_part3 (F := F) main_arg1 main_v43 main_v47 main_v51

def fn_part1 {F : FTy → Type} [FloatOps F] (main_arg0 : IVec S2x600000 32) (main_arg1 : IVec S600000 32) (main_arg6 : FVec F S128x128 .f32) (main_arg7 : FVec F S128x128 .f32) (main_arg8 : FVec F S128x128 .f32) (main_arg9 : FVec F S128x128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg1 main_arg9 main_arg10 main_v33

def fn {F : FTy → Type} [FloatOps F] (main_arg0 : IVec S2x600000 32) (main_arg1 : IVec S600000 32) (main_arg2 : FVec F S600000 .f32) (main_arg3 : FVec F S100000x128 .f32) (main_arg4 : FVec F S200x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) : IVec S_ 1 :=
  let main_v0 : FVec F S600000 .f32 := Host.absf main_arg2
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S200x128 .f32 := Host.absf main_arg4
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg6 main_arg7 main_arg8 main_arg9 main_arg10 main_v13 main_v16
-- ==== Kernel.lean ====
abbrev S2x600000 : Shape := ⟨2, ![2, 600000]⟩
abbrev S600000 : Shape := ⟨1, ![600000]⟩
abbrev S100000x128 : Shape := ⟨2, ![100000, 128]⟩
abbrev S200x128 : Shape := ⟨2, ![200, 128]⟩
abbrev S128x128 : Shape := ⟨2, ![128, 128]⟩
abbrev S1x600000 : Shape := ⟨2, ![1, 600000]⟩
abbrev S600000x1 : Shape := ⟨2, ![600000, 1]⟩
abbrev S_ : Shape := ⟨0, ![]⟩
abbrev S1 : Shape := ⟨1, ![1]⟩
abbrev S1x1 : Shape := ⟨2, ![1, 1]⟩
abbrev S600000x128 : Shape := ⟨2, ![600000, 128]⟩
abbrev S5000x128 : Shape := ⟨2, ![5000, 128]⟩
abbrev S5000x1 : Shape := ⟨2, ![5000, 1]⟩

abbrev nBuf : Space → Nat
  | .hbm => 122
  | .vmem => 38
  | .smem => 0
  | _ => 0

abbrev bufTy : (tb : Table) → Fin (tcTables nBuf tb) → BufTy
  | .hbm, ⟨0, _⟩ => ⟨S2x600000, .i32⟩
  | .hbm, ⟨1, _⟩ => ⟨S600000, .i32⟩
  | .hbm, ⟨2, _⟩ => ⟨S600000, .f32⟩
  | .hbm, ⟨3, _⟩ => ⟨S100000x128, .f32⟩
  | .hbm, ⟨4, _⟩ => ⟨S200x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S600000x1, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S1, .i32⟩
  | .hbm, ⟨25, _⟩ => ⟨S_, .i32⟩
  | .hbm, ⟨26, _⟩ => ⟨S600000x1, .i32⟩
  | .hbm, ⟨27, _⟩ => ⟨S600000x1, .i1⟩
  | .hbm, ⟨28, _⟩ => ⟨S1x1, .i32⟩
  | .hbm, ⟨29, _⟩ => ⟨S600000x1, .i32⟩
  | .hbm, ⟨30, _⟩ => ⟨S600000x1, .i1⟩
  | .hbm, ⟨31, _⟩ => ⟨S600000x1, .i1⟩
  | .hbm, ⟨32, _⟩ => ⟨S_, .i1⟩
  | .hbm, ⟨33, _⟩ => ⟨S600000, .i1⟩
  | .hbm, ⟨34, _⟩ => ⟨S600000x128, .f32⟩
  | .hbm, ⟨35, _⟩ => ⟨S600000x128, .i1⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S1, .i32⟩
  | .hbm, ⟨48, _⟩ => ⟨S_, .i32⟩
  | .hbm, ⟨49, _⟩ => ⟨S600000x1, .i32⟩
  | .hbm, ⟨50, _⟩ => ⟨S600000x1, .i1⟩
  | .hbm, ⟨51, _⟩ => ⟨S1x1, .i32⟩
  | .hbm, ⟨52, _⟩ => ⟨S600000x1, .i32⟩
  | .hbm, ⟨53, _⟩ => ⟨S600000x1, .i1⟩
  | .hbm, ⟨54, _⟩ => ⟨S600000x1, .i1⟩
  | .hbm, ⟨55, _⟩ => ⟨S_, .i1⟩
  | .hbm, ⟨56, _⟩ => ⟨S600000, .i1⟩
  | .hbm, ⟨57, _⟩ => ⟨S600000x128, .f32⟩
  | .hbm, ⟨58, _⟩ => ⟨S600000x128, .i1⟩
  | .hbm, ⟨59, _⟩ => ⟨S_, .f32⟩
  | .hbm, ⟨60, _⟩ => ⟨S600000x128, .f32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S100000x128, .f32⟩
  | .hbm, ⟨65, _⟩ => ⟨S600000x1, .i32⟩
  | .hbm, ⟨66, _⟩ => ⟨S100000x128, .f32⟩
  | .hbm, ⟨67, _⟩ => ⟨S100000x128, .f32⟩
  | .hbm, ⟨68, _⟩ => ⟨S200x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S1, .i32⟩
  | .hbm, ⟨78, _⟩ => ⟨S_, .i32⟩
  | .hbm, ⟨79, _⟩ => ⟨S600000x1, .i32⟩
  | .hbm, ⟨80, _⟩ => ⟨S600000x1, .i1⟩
  | .hbm, ⟨81, _⟩ => ⟨S1x1, .i32⟩
  | .hbm, ⟨82, _⟩ => ⟨S600000x1, .i32⟩
  | .hbm, ⟨83, _⟩ => ⟨S600000x1, .i1⟩
  | .hbm, ⟨84, _⟩ => ⟨S600000x1, .i1⟩
  | .hbm, ⟨85, _⟩ => ⟨S_, .i1⟩
  | .hbm, ⟨86, _⟩ => ⟨S600000, .i1⟩
  | .hbm, ⟨87, _⟩ => ⟨S600000x128, .f32⟩
  | .hbm, ⟨88, _⟩ => ⟨S600000x128, .i1⟩
  | .hbm, ⟨89, _⟩ => ⟨S_, .f32⟩
  | .hbm, ⟨90, _⟩ => ⟨S600000x128, .f32⟩
  | .hbm, ⟨91, _⟩ => ⟨S600000x128, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S1, .i32⟩
  | .hbm, ⟨101, _⟩ => ⟨S_, .i32⟩
  | .hbm, ⟨102, _⟩ => ⟨S600000x1, .i32⟩
  | .hbm, ⟨103, _⟩ => ⟨S600000x1, .i1⟩
  | .hbm, ⟨104, _⟩ => ⟨S1x1, .i32⟩
  | .hbm, ⟨105, _⟩ => ⟨S600000x1, .i32⟩
  | .hbm, ⟨106, _⟩ => ⟨S600000x1, .i1⟩
  | .hbm, ⟨107, _⟩ => ⟨S600000x1, .i1⟩
  | .hbm, ⟨108, _⟩ => ⟨S_, .i1⟩
  | .hbm, ⟨109, _⟩ => ⟨S600000, .i1⟩
  | .hbm, ⟨110, _⟩ => ⟨S600000x128, .f32⟩
  | .hbm, ⟨111, _⟩ => ⟨S600000x128, .i1⟩
  | .hbm, ⟨112, _⟩ => ⟨S_, .f32⟩
  | .hbm, ⟨113, _⟩ => ⟨S600000x128, .f32⟩
  | .hbm, ⟨114, _⟩ => ⟨S600000x128, .f32⟩
  | .hbm, ⟨115, _⟩ => ⟨S600000x128, .f32⟩
  | .hbm, ⟨116, _⟩ => ⟨S_, .f32⟩
  | .hbm, ⟨117, _⟩ => ⟨S100000x128, .f32⟩
  | .hbm, ⟨118, _⟩ => ⟨S600000x1, .i32⟩
  | .hbm, ⟨119, _⟩ => ⟨S100000x128, .f32⟩
  | .hbm, ⟨120, _⟩ => ⟨S100000x128, .f32⟩
  | .hbm, ⟨121, _⟩ => ⟨S200x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S200x128, .f32⟩
  | .local _ .vmem, ⟨17, _⟩ => ⟨S128x128, .f32⟩
  | .local _ .vmem, ⟨18, _⟩ => ⟨S200x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S200x128, .f32⟩
  | .local _ .vmem, ⟨36, _⟩ => ⟨S128x128, .f32⟩
  | .local _ .vmem, ⟨37, _⟩ => ⟨S200x128, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v6 : Ref sig .tc := ⟨.hbm, 61, rfl⟩
abbrev main_v7 : Ref sig .tc := ⟨.hbm, 62, rfl⟩
abbrev main_cst : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v13 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v14 : Ref sig .tc := ⟨.hbm, 114, rfl⟩
abbrev main_v15 : Ref sig .tc := ⟨.hbm, 115, rfl⟩
abbrev main_cst_0 : Ref sig .tc := ⟨.hbm, 116, rfl⟩
abbrev main_v16 : Ref sig .tc := ⟨.hbm, 117, rfl⟩
abbrev main_v17 : Ref sig .tc := ⟨.hbm, 118, rfl⟩
abbrev main_v18 : Ref sig .tc := ⟨.hbm, 119, rfl⟩
abbrev main_v19 : Ref sig .tc := ⟨.hbm, 120, rfl⟩
abbrev main_v20 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem1_0 : DmaSem sig := 36
abbrev cc5_sem2_0 : DmaSem sig := 37

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S200x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S200x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![120], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S200x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S200x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S600000_S600000x1 : S600000.ShapeCasts S600000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S200x128_S200x128_0_0 : ∀ a, (![0, 0] : Fin 2 → Nat) a + S200x128.size a ≤ S200x128.size a
  h_S200x128 : 0 < S200x128.numel
  shapeCasts_S200x128_S200x128 : S200x128.ShapeCasts S200x128
  gather_S100000x128_S600000x1_S600000x128_1_0_n_n_0_1_1128_wf : GatherDims.WF S100000x128 S600000x1 S600000x128 [1] [0] [] [0] [] 1 ![1, 128]
  gather_S200x128_S600000x1_S600000x128_1_0_n_n_0_1_1128_wf : GatherDims.WF S200x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S600000x128.size a
  hwx0_0 : ∀ i : grid0.Coords, EltTy.bits .f32 = 32 ∨ (Rect.block (s := S600000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S600000x128.size a
  hwx0_1 : ∀ i : grid0.Coords, EltTy.bits .f32 = 32 ∨ (Rect.block (s := S600000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S600000x1.size a
  hwx0_2 : ∀ i : grid0.Coords, EltTy.bits .f32 = 32 ∨ (Rect.block (s := S600000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S600000x128.size a
  hwx0_3 : ∀ i : grid0.Coords, EltTy.bits .f32 = 32 ∨ (Rect.block (s := S600000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S200x128.size a ≤ S200x128.size a
  hwx2_0 : ∀ i : grid2.Coords, EltTy.bits .f32 = 32 ∨ (Rect.block (s := S200x128) S200x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200x128.size a ≤ S200x128.size a
  hwx2_2 : ∀ i : grid2.Coords, EltTy.bits .f32 = 32 ∨ (Rect.block (s := S200x128) S200x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S600000x128.size a
  hwx3_0 : ∀ i : grid3.Coords, EltTy.bits .f32 = 32 ∨ (Rect.block (s := S600000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S600000x128.size a
  hwx3_1 : ∀ i : grid3.Coords, EltTy.bits .f32 = 32 ∨ (Rect.block (s := S600000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S600000x1.size a
  hwx3_2 : ∀ i : grid3.Coords, EltTy.bits .f32 = 32 ∨ (Rect.block (s := S600000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S600000x128.size a
  hwx3_3 : ∀ i : grid3.Coords, EltTy.bits .f32 = 32 ∨ (Rect.block (s := S600000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S200x128.size a ≤ S200x128.size a
  hwx5_0 : ∀ i : grid5.Coords, EltTy.bits .f32 = 32 ∨ (Rect.block (s := S200x128) S200x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S200x128.size a ≤ S200x128.size a
  hwx5_2 : ∀ i : grid5.Coords, EltTy.bits .f32 = 32 ∨ (Rect.block (s := S200x128) S200x128.size (cc5_transform_2 i) (hinb5_2 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S200x128_S600000x1_S600000x128_1_0_n_n_0_1_1128 : GatherDims S200x128 S600000x1 S600000x128 where
  offsetDims := [1]
  collapsedSliceDims := [0]
  operandBatchingDims := []
  startIndicesBatchingDims := []
  startIndexMap := [0]
  indexVectorDim := 1
  sliceSizes := ![1, 128]
  wf := gather_S200x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_v5) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg4) S200x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S200x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v13) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v18) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v19) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v12) S200x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v20) S200x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S2x600000 : Shape := ⟨2, ![2, 600000]⟩
abbrev S600000 : Shape := ⟨1, ![600000]⟩
abbrev S100000x128 : Shape := ⟨2, ![100000, 128]⟩
abbrev S200x128 : Shape := ⟨2, ![200, 128]⟩
abbrev S128x128 : Shape := ⟨2, ![128, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x600000, .i32⟩
  | .hbm, ⟨1, _⟩ => ⟨S600000, .i32⟩
  | .hbm, ⟨2, _⟩ => ⟨S600000, .f32⟩
  | .hbm, ⟨3, _⟩ => ⟨S100000x128, .f32⟩
  | .hbm, ⟨4, _⟩ => ⟨S200x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x128, .f32⟩
  | .hbm, ⟨34, _⟩ => ⟨S600000x1, .f32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S100000x128, .f32⟩
  | .hbm, ⟨39, _⟩ => ⟨S600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S200x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S200x128, .f32⟩
  | .hbm, ⟨50, _⟩ => ⟨S200x128, .f32⟩
  | .hbm, ⟨51, _⟩ => ⟨S1x600000, .i32⟩
  | .hbm, ⟨52, _⟩ => ⟨S600000, .i32⟩
  | .hbm, ⟨53, _⟩ => ⟨S1x600000, .i32⟩
  | .hbm, ⟨54, _⟩ => ⟨S600000, .i32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S600000x128, .f32⟩
  | .hbm, ⟨74, _⟩ => ⟨S600000x1, .f32⟩
  | .hbm, ⟨75, _⟩ => ⟨S600000x128, .f32⟩
  | .hbm, ⟨76, _⟩ => ⟨S600000x128, .f32⟩
  | .hbm, ⟨77, _⟩ => ⟨S_, .f32⟩
  | .hbm, ⟨78, _⟩ => ⟨S100000x128, .f32⟩
  | .hbm, ⟨79, _⟩ => ⟨S600000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S200x128, .f32⟩
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S200x128 : S_.BroadcastsInDim S200x128 (![] : Fin 0 → Fin S200x128.rank)
  gather_S100000x128_S600000x1_S600000x128_1_0_n_n_0_1_1128_wf : GatherDims.WF S100000x128 S600000x1 S600000x128 [1] [0] [] [0] [] 1 ![1, 128]
  gather_S200x128_S600000x1_S600000x128_1_0_n_n_0_1_1128_wf : GatherDims.WF S200x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S200x128_S128x128_S200x128_1_0_0_1_n_n_wf : DotDims.WF S200x128 S128x128 S200x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S200x128_S600000x1_S600000x128_1_0_n_n_0_1_1128 : GatherDims S200x128 S600000x1 S600000x128 where
  offsetDims := [1]
  collapsedSliceDims := [0]
  operandBatchingDims := []
  startIndicesBatchingDims := []
  startIndexMap := [0]
  indexVectorDim := 1
  sliceSizes := ![1, 128]
  wf := gather_S200x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

class Facts : Prop extends Facts₀ where

variable [Facts]
-- ==== Proof.Spec.lean ====
/-
  Two rounds of relational message passing on a graph, as plain functions on arrays of extended reals.

  An edge e carries a source node, a relation and a weight w(e). Its message is, lane by lane,
      (x[src e] − rel[type e]) · w(e).
  Messages are summed into their destination nodes (that sum is shared verbatim by both programs and is never
  opened here), and a node's new feature row is
      agg · W + x · Wself,
  a relation's new row  rel · Wrel,  each a sum over the 128 input lanes of products; after the first round
  both are clipped below at 0.

  The functions below are stated over literal shapes and explicit coordinates, so that a lemma about one entry is
  a lemma about two bounded naturals.
-/
import Idealize.ShloMosaic.PureOps.Ideal
import Idealize.ShloMosaic.Lib.ValueIdx

noncomputable section

open scoped BigOperators
open Idealize.ShloMosaic Idealize.ShloMosaic.ValueIdx

namespace Cert.Gcn

/-- edges × lanes -/
abbrev SE128 : Shape := ⟨2, ![600000, 128]⟩
/-- edges × 1: one weight per edge, kept as a column -/
abbrev SE1 : Shape := ⟨2, ![600000, 1]⟩
/-- nodes × lanes -/
abbrev SN128 : Shape := ⟨2, ![100000, 128]⟩
/-- relations × lanes -/
abbrev SR128 : Shape := ⟨2, ![200, 128]⟩
/-- a square weight matrix, input lane × output lane -/
abbrev SD : Shape := ⟨2, ![128, 128]⟩

/-- The message of edge `e` at lane `l`: source row minus relation row, scaled by the edge's weight. -/
def msgAt (xs rs : SE128.Idx → EReal) (ew : SE1.Idx → EReal) (e : Fin 600000) (l : Fin 128) : EReal :=
  (xs (ix2 e l) - rs (ix2 e l)) * ew (ix2 e (0 : Fin 1))

/-- All messages. -/
def compose (xs rs : SE128.Idx → EReal) (ew : SE1.Idx → EReal) : SE128.Idx → EReal :=
  fun i => msgAt xs rs ew (i 0) (i 1)

/-- Row `p` of a node array against column `q` of a weight matrix. -/
def rowDotN (a : SN128.Idx → EReal) (w : SD.Idx → EReal) (p : Fin 100000) (q : Fin 128) : EReal :=
  ∑ k : Fin 128, a (ix2 p k) * w (ix2 k q)

/-- Row `p` of a relation array against column `q` of a weight matrix. -/
def rowDotR (a : SR128.Idx → EReal) (w : SD.Idx → EReal) (p : Fin 200) (q : Fin 128) : EReal :=
  ∑ k : Fin 128, a (ix2 p k) * w (ix2 k q)

/-- A node's new row, no clipping: aggregated messages through `W` plus the node's own row through `Ws`. -/
def nodeLin (agg x : SN128.Idx → EReal) (W Ws : SD.Idx → EReal) : SN128.Idx → EReal :=
  fun i => rowDotN agg W (i 0) (i 1) + rowDotN x Ws (i 0) (i 1)

/-- The same, clipped below at 0. -/
def nodeRelu (agg x : SN128.Idx → EReal) (W Ws : SD.Idx → EReal) : SN128.Idx → EReal :=
  fun i => max (nodeLin agg x W Ws i) 0

/-- A relation's new row, no clipping. -/
def relLin (rel : SR128.Idx → EReal) (Wr : SD.Idx → EReal) : SR128.Idx → EReal :=
  fun i => rowDotR rel Wr (i 0) (i 1)

/-- The same, clipped below at 0. -/
def relRelu (rel : SR128.Idx → EReal) (Wr : SD.Idx → EReal) : SR128.Idx → EReal :=
  fun i => max (relLin rel Wr i) 0

/-- Both rounds, for the node features. The two row-gathers (`g1` picks, per edge, a row of a node array; `g2` a row of a
    relation array) and the sum of messages into destination nodes (`sc`) enter as functions: the two programs spell them
    differently, and nothing here looks inside them. Round one clips at 0, round two does not. -/
def gcnX2 (g1 : (SN128.Idx → EReal) → SE128.Idx → EReal) (g2 : (SR128.Idx → EReal) → SE128.Idx → EReal)
    (sc : (SE128.Idx → EReal) → SN128.Idx → EReal) (ew : SE1.Idx → EReal)
    (x : SN128.Idx → EReal) (rel : SR128.Idx → EReal) (W0 Ws0 Wr0 W1 Ws1 : SD.Idx → EReal) : SN128.Idx → EReal :=
  nodeLin (sc (compose (g1 (nodeRelu (sc (compose (g1 x) (g2 rel) ew)) x W0 Ws0)) (g2 (relRelu rel Wr0)) ew))
    (nodeRelu (sc (compose (g1 x) (g2 rel) ew)) x W0 Ws0) W1 Ws1

/-- Both rounds, for the relation features: two matrix products with a clip at 0 between them. -/
def gcnR2 (rel : SR128.Idx → EReal) (Wr0 Wr1 : SD.Idx → EReal) : SR128.Idx → EReal :=
  relLin (relRelu rel Wr0) Wr1

theorem compose_apply (xs rs : SE128.Idx → EReal) (ew : SE1.Idx → EReal) (e : Fin 600000) (l : Fin 128) :
    compose xs rs ew (ix2 e l) = (xs (ix2 e l) - rs (ix2 e l)) * ew (ix2 e (0 : Fin 1)) := rfl

theorem nodeLin_apply (agg x : SN128.Idx → EReal) (W Ws : SD.Idx → EReal) (p : Fin 100000) (q : Fin 128) :
    nodeLin agg x W Ws (ix2 p q)
      = (∑ k : Fin 128, agg (ix2 p k) * W (ix2 k q)) + ∑ k : Fin 128, x (ix2 p k) * Ws (ix2 k q) := rfl

theorem nodeRelu_apply (agg x : SN128.Idx → EReal) (W Ws : SD.Idx → EReal) (p : Fin 100000) (q : Fin 128) :
    nodeRelu agg x W Ws (ix2 p q)
      = max ((∑ k : Fin 128, agg (ix2 p k) * W (ix2 k q)) + ∑ k : Fin 128, x (ix2 p k) * Ws (ix2 k q)) 0 := rfl

theorem relLin_apply (rel : SR128.Idx → EReal) (Wr : SD.Idx → EReal) (p : Fin 200) (q : Fin 128) :
    relLin rel Wr (ix2 p q) = ∑ k : Fin 128, rel (ix2 p k) * Wr (ix2 k q) := rfl

theorem relRelu_apply (rel : SR128.Idx → EReal) (Wr : SD.Idx → EReal) (p : Fin 200) (q : Fin 128) :
    relRelu rel Wr (ix2 p q) = max (∑ k : Fin 128, rel (ix2 p k) * Wr (ix2 k q)) 0 := rfl

end Cert.Gcn

end
-- ==== Proof.Reg0.lean ====
/- The first round's messages: after the edge-block kernel has run over all 120 blocks of 5000 edges, the output array holds, edge by edge and lane by lane, (source row − relation row) · weight of the three arrays the region was entered with. -/
import proofs.«424043_j68307159875880_1_alg».proof.Proof.Gen.KernelIdeal.Frame
import proofs.«424043_j68307159875880_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.GcnReg0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset of the body's one load and one store on every axis is zero. -/
theorem hz : (![0, 0] : Fin 2 → Nat) = fun _ => 0 := funext fun a => by fin_cases a <;> rfl

/-- The body's payload at row p, lane q of a block: the difference of the two row blocks there, times the weight
    column's entry of row p (the column is repeated along the lanes). -/
theorem pay_apply (x0 x1 : Vec Ideal S5000x128 .f32) (x2 : Vec Ideal S5000x1 .f32) (p : Fin 5000) (q : Fin 128) :
    k0_pay1 x0 x1 x2 (ix2 p q) = (x0 (ix2 p q) - x1 (ix2 p q)) * x2 (ix2 p (0 : Fin 1)) := by
  unfold k0_pay1
  simp only [shapeCast_self]
  rw [mulf_apply, subf_apply]
  rw [broadcastTo_apply x2 _ (ix2 p q) (ix2 p (0 : Fin 1)) ?_]
  intro a
  match a with
  | ⟨0, _⟩ => rfl
  | ⟨1, _⟩ => rfl

/-- The index maps over the 120 grid points: every window's row-block index is the point's number and its column
    block is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One entry: when the three reads sit at the output's index (the weight column's at that row, column 0), the
    entry computed is the message there. -/
theorem point_eq (a0 a1 : SE128.Idx → EReal) (a2 : SE1.Idx → EReal) (i0 i1 i3 : SE128.Idx) (i2 : SE1.Idx)
    (h0 : i0 = i3) (h1 : i1 = i3) (h2 : i2 = ix2 (i3 0) (0 : Fin 1)) :
    (a0 i0 - a1 i1) * a2 i2 = compose a0 a1 a2 i3 := by
  rw [h0, h1, h2]
  obtain ⟨e, l, rfl⟩ : ∃ (e : Fin 600000) (l : Fin 128), i3 = ix2 e l := ⟨i3 0, i3 1, eq_ix2 i3⟩
  rfl

/-- What point t writes back is block t of the message array: the body's payload of the three input blocks, entry
    by entry, with each input block read at the rows the output block occupies. -/
theorem flushed_eq (c : Dev nD) (t : Fin cfg0.N) :
    (dat0 (F := Ideal) V c).flushed 3 t
      = ((cfg0.win 3).blk t).view.read (Elt Ideal) (compose (V c main_v5) (V c main_v6) (V c main_v4)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz]
  show k0_pay1 (iblk0 V c 0 t) (iblk0 V c 1 t) (iblk0 V c 2 t)
      = fun j : S5000x128.Idx => compose (V c main_v5) (V c main_v6) (V c main_v4) (((cfg0.win 3).blk t).view.emb j)
  funext j
  obtain ⟨p, q, rfl⟩ : ∃ (p : Fin 5000) (q : Fin 128), j = ix2 p q := ⟨j 0, j 1, eq_ix2 j⟩
  rw [pay_apply]
  obtain ⟨e00, e01, e10, e11, e20, e21, e30, e31⟩ := idx_facts t
  have hp : p.val < 5000 := p.isLt
  have hq : q.val < 128 := q.isLt
  refine point_eq (V c main_v5) (V c main_v6) (V c main_v4) (((cfg0.win 0).blk t).view.emb (ix2 p q))
    (((cfg0.win 1).blk t).view.emb (ix2 p q)) (((cfg0.win 3).blk t).view.emb (ix2 p q))
    (((cfg0.win 2).blk t).view.emb (ix2 p (0 : Fin 1))) ?_ ?_ ?_
  · funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * q.val = win0_3.index t (1 : Fin 2) * 128 + 1 * q.val; omega
  · funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 128 + 1 * q.val = win0_3.index t (1 : Fin 2) * 128 + 1 * q.val; omega
  · funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- An index of the output array lies in point t's block exactly when each coordinate lies in the block's range on
    its axis. -/
theorem mem_blk (t : Fin cfg0.N) (i : S600000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v7).slice (win0_3.rect t)).set ↔ _
  rw [View.set_slice_whole, Rect.mem_set_unit]
  exact Iff.rfl

/-- Every index of the output array is in the block of the point numbered (row / 5000), and every point writes its
    block back. -/
theorem cover (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  have ht : (i 0).val / 5000 < 120 := by omega
  obtain ⟨-, -, -, -, -, -, e30, e31⟩ := idx_facts ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega
/-- The first round's messages: after the edge-block kernel has run over all 120 blocks of 5000 edges, the output array holds, edge by edge and lane by lane, (source row − relation row) · weight of the three arrays the region was entered with. -/
theorem arr0 (c : Dev nD) : (dat0 (F := Ideal) V c).arrAt 3 cfg0.N = compose (V c main_v5) (V c main_v6) (V c main_v4) := by
  exact (dat0 (F := Ideal) V c).arrAt_eq_of_cover 3 _ (fun t _ => flushed_eq V c t) cover

end Cert.KernelIdeal.GcnReg0

end
-- ==== Proof.Reg1.lean ====
/- The first round's node update: after the node-block kernel has run over all 20 blocks of 5000 nodes, the output array holds max(agg·W + x·Wself, 0), each product a sum over the 128 input lanes. -/
import proofs.«424043_j68307159875880_1_alg».proof.Proof.Gen.KernelIdeal.Frame
import proofs.«424043_j68307159875880_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.GcnReg1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an entry -/

/-- Left operand, row axis: the output's row. -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand, lane axis: the summation index. -/
theorem lhs_lane (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- Right operand, input-lane axis: the summation index. -/
theorem rhs_lane (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Right operand, output-lane axis: the output's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128×128 matrix, into a zero accumulator, at entry (p, q): the sum over the 128 input
    lanes of row p of the block against column q of the matrix. -/
theorem blockDot_apply (x : FVec Ideal S5000x128 .bf16) (w : FVec Ideal S128x128 .bf16) (p : Fin 5000) (q : Fin 128) :
    FloatOps.matmul dot_S5000x128_S128x128_S5000x128_1_0_0_1_n_n none x w (constant (F := Ideal) S5000x128 .f32 0x00000000#32) (ix2 p q)
      = ∑ k : Fin 128, x (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_lane _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_lane _ _).trans hk
    | ⟨1, _⟩ => exact rhs_col _ _)
  rw [el, er]

/-- The body's payload at entry (p, q): both products, added, clipped below at 0. -/
theorem pay_apply (x0 x1 : Vec Ideal S5000x128 .f32) (w0 w1 : Vec Ideal S128x128 .f32) (p : Fin 5000) (q : Fin 128) :
    k1_pay1 x0 x1 w0 w1 (ix2 p q)
      = max ((∑ k : Fin 128, x0 (ix2 p k) * w0 (ix2 k q)) + ∑ k : Fin 128, x1 (ix2 p k) * w1 (ix2 k q)) 0 := by
  unfold k1_pay1
  simp only [maximumf_apply, addf_apply, broadcast_apply, matmul, blockDot_apply, truncf_apply, shapeCast_self]
  rw [show (Scalar.ofBits (F := Ideal) .f32 0x00000000#32) = 0 from Ideal.ofBits_zero_f32]

/-! ## From the blocks to the array -/

theorem hz : (![0, 0] : Fin 2 → Nat) = fun _ => 0 := funext fun a => by fin_cases a <;> rfl

/-- The index maps over the 20 grid points: the two node windows and the output sit on row block t, column block 0;
    the two weight windows on block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 5000·t + p of the array. -/
theorem row_lt (t : Fin cfg1.N) (p : Fin 5000) : t.val * 5000 + p.val < 100000 := by
  have ht : t.val < 20 := Nat.lt_of_lt_of_eq t.isLt N_1
  have hp := p.isLt
  omega

/-- The aggregated-messages window's block at point t, at (p, k): the array at (5000·t + p, k). -/
theorem agg_apply (c : Dev nD) (t : Fin cfg1.N) (p : Fin 5000) (k : Fin 128) :
    (iblk1 V c 0 t : Vec Ideal S5000x128 .f32) (ix2 p k)
      = (V c main_v10 : SN128.Idx → EReal) (ix2 ⟨t.val * 5000 + p.val, row_lt t p⟩ k) := by
  obtain ⟨e0, e1, -⟩ := idx_facts t
  unfold iblk1
  rw [View.read_apply]
  show V c main_v10 _ = V c main_v10 _
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The node-features window's block at point t, at (p, k): the array at (5000·t + p, k). -/
theorem feat_apply (c : Dev nD) (t : Fin cfg1.N) (p : Fin 5000) (k : Fin 128) :
    (iblk1 V c 1 t : Vec Ideal S5000x128 .f32) (ix2 p k)
      = (V c main_arg3 : SN128.Idx → EReal) (ix2 ⟨t.val * 5000 + p.val, row_lt t p⟩ k) := by
  obtain ⟨-, -, e2, e3, -⟩ := idx_facts t
  unfold iblk1
  rw [View.read_apply]
  show V c main_arg3 _ = V c main_arg3 _
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight window's block at any point is the whole matrix. -/
theorem wmat_apply (c : Dev nD) (t : Fin cfg1.N) (k q : Fin 128) :
    (iblk1 V c 2 t : Vec Ideal S128x128 .f32) (ix2 k q) = (V c main_arg5 : SD.Idx → EReal) (ix2 k q) := by
  obtain ⟨-, -, -, -, e4, e5, -⟩ := idx_facts t
  unfold iblk1
  rw [View.read_apply]
  show V c main_arg5 _ = V c main_arg5 _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The second weight window's block at any point is the whole matrix. -/
theorem wself_apply (c : Dev nD) (t : Fin cfg1.N) (k q : Fin 128) :
    (iblk1 V c 3 t : Vec Ideal S128x128 .f32) (ix2 k q) = (V c main_arg6 : SD.Idx → EReal) (ix2 k q) := by
  obtain ⟨-, -, -, -, -, -, e6, e7, -⟩ := idx_facts t
  unfold iblk1
  rw [View.read_apply]
  show V c main_arg6 _ = V c main_arg6 _
  congr 1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- Entry (p, q) of the output's block at point t sits at (5000·t + p, q) of the array. -/
theorem out_emb (t : Fin cfg1.N) (p : Fin 5000) (q : Fin 128) :
    (((cfg1.win 4).blk t).view.emb (ix2 p q) : SN128.Idx) = ix2 ⟨t.val * 5000 + p.val, row_lt t p⟩ q := by
  obtain ⟨-, -, -, -, -, -, -, -, e8, e9⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega

/-- What point t writes back is block t of the clipped node update of the arrays the launch finds. -/
theorem flushed_eq (c : Dev nD) (t : Fin cfg1.N) :
    (dat1 (F := Ideal) V c).flushed 4 t
      = ((cfg1.win 4).blk t).view.read (Elt Ideal) (nodeRelu (V c main_v10) (V c main_arg3) (V c main_arg5) (V c main_arg6)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = nodeRelu (V c main_v10) (V c main_arg3) (V c main_arg5) (V c main_arg6) (((cfg1.win 4).blk t).view.emb (ix2 p q))
  rw [out_emb, nodeRelu_apply]
  refine (pay_apply _ _ _ _ p q).trans ?_
  simp only [agg_apply, feat_apply, wmat_apply, wself_apply]

/-- An array index is in point t's block iff each coordinate is in the block's range on its axis. -/
theorem mem_blk (t : Fin cfg1.N) (i : SN128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v11).slice (win1_4.rect t)).set ↔ _
  rw [View.set_slice_whole, Rect.mem_set_unit]
  exact Iff.rfl

/-- Every array index lies in some point's block: row r in block r / 5000. -/
theorem covered (i : SN128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_4 _, ?_⟩
  rw [mem_blk]
  obtain ⟨-, -, -, -, -, -, -, -, e8, e9⟩ := idx_facts ⟨(i 0).val / 5000, by rw [hN]; omega⟩
  intro a
  match a with
  | ⟨0, _⟩ => show win1_4.index _ (0 : Fin 2) * 5000 ≤ (i 0).val ∧ (i 0).val < win1_4.index _ (0 : Fin 2) * 5000 + 5000; rw [e8]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e9]; omega

/-- The first round's node update: after the node-block kernel has run over all 20 blocks of 5000 nodes, the output array holds max(agg·W + x·Wself, 0), each product a sum over the 128 input lanes. -/
theorem arr1 (c : Dev nD) : (dat1 (F := Ideal) V c).arrAt 4 cfg1.N = nodeRelu (V c main_v10) (V c main_arg3) (V c main_arg5) (V c main_arg6) :=
  (dat1 (F := Ideal) V c).arrAt_eq_of_cover 4 _ (fun t _ => flushed_eq V c t) covered

end Cert.KernelIdeal.GcnReg1

end
-- ==== Proof.Reg2.lean ====
/- The first round's relation update: one grid point, the whole 200×128 array at once: max(rel·Wrel, 0). -/
import proofs.«424043_j68307159875880_1_alg».proof.Proof.Gen.KernelIdeal.Frame
import proofs.«424043_j68307159875880_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.GcnReg2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Left operand, row axis: the output's row. -/
theorem lhs_rel_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
/-- Left operand, lane axis: the summation index. -/
theorem lhs_rel_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
/-- Right operand, input-lane axis: the summation index. -/
theorem rhs_rel_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
/-- Right operand, output-lane axis: the output's column. -/
theorem rhs_rel_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The matrix product into the zero accumulator, read at row p and column q: the sum over the 128 input lanes. -/
theorem mm_rel_apply (a : FVec Ideal S200x128 .bf16) (b : FVec Ideal S128x128 .bf16) (p : Fin 200) (q : Fin 128) :
    matmul dot_S200x128_S128x128_S200x128_1_0_0_1_n_n none a b (constant (F := Ideal) S200x128 .f32 0x00000000#32) (ix2 p q)
      = ∑ k : Fin 128, a (ix2 p k) * b (ix2 k q) := by
  refine (Ideal.matmul_constant_zero_apply dot_S200x128_S128x128_S200x128_1_0_0_1_n_n none a b (ix2 p q)).trans ?_
  rw [← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun a => Fin.ext (by
    match a with
    | ⟨0, _⟩ => exact lhs_rel_0 _ _
    | ⟨1, _⟩ => exact (lhs_rel_1 _ _).trans hk)
  have er : dot_S200x128_S128x128_S200x128_1_0_0_1_n_n.rhsIdx (ix2 p q) ((contrEquiv1 dot_S200x128_S128x128_S200x128_1_0_0_1_n_n 128 rfl rfl).symm k) = ix2 k q := funext fun a => Fin.ext (by
    match a with
    | ⟨0, _⟩ => exact (rhs_rel_0 _ _).trans hk
    | ⟨1, _⟩ => exact rhs_rel_1 _ _)
  rw [el, er]

/-- The body's payload at row p, column q: the product row clipped below at 0. -/
theorem pay_relu_apply (x0 : Vec Ideal S200x128 .f32) (w0 : Vec Ideal S128x128 .f32) (p : Fin 200) (q : Fin 128) :
    k2_pay1 (F := Ideal) x0 w0 (ix2 p q) = max (∑ k : Fin 128, x0 (ix2 p k) * w0 (ix2 k q)) 0 := by
  unfold k2_pay1
  refine (maximumf_apply _ _ (ix2 p q)).trans ?_
  rw [mm_rel_apply, broadcast_apply]
  show max _ (Ideal.ofBits .f32 0x00000000#32) = _
  rw [Ideal.ofBits_zero_f32]
  rfl

/-- The zero offsets of every access of the body, as a function. -/
theorem off_zero : (![0, 0] : Fin 2 → Nat) = fun _ => 0 := funext fun a => by fin_cases a <;> rfl

/-- At the grid's one point every window sits at block (0, 0). -/
theorem blocks_at_origin : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The relation window's block is the relation array itself: entry (p, k) of the block is entry (p, k) of the array. -/
theorem rel_blk_apply (c : Dev nD) (t : Fin cfg2.N) (p : Fin 200) (k : Fin 128) :
    (iblk2 (F := Ideal) V c 0 t : Vec Ideal S200x128 .f32) (ix2 p k) = (V c main_arg4 : SR128.Idx → EReal) (ix2 p k) := by
  obtain ⟨e0, e1, -, -, -, -⟩ := blocks_at_origin t
  show V c main_arg4 (((cfg2.win 0).blk t).view.emb (ix2 p k)) = V c main_arg4 (ix2 p k)
  refine congrArg _ ?_
  funext a; apply Fin.ext
  match a with
  | ⟨0, _⟩ => show win2_0.index t (0 : Fin 2) * 200 + 1 * p.val = p.val; omega
  | ⟨1, _⟩ => show win2_0.index t (1 : Fin 2) * 128 + 1 * k.val = k.val; omega

/-- The weight window's block is the weight matrix itself. -/
theorem wgt_blk_apply (c : Dev nD) (t : Fin cfg2.N) (k : Fin 128) (q : Fin 128) :
    (iblk2 (F := Ideal) V c 1 t : Vec Ideal S128x128 .f32) (ix2 k q) = (V c main_arg7 : SD.Idx → EReal) (ix2 k q) := by
  obtain ⟨-, -, e2, e3, -, -⟩ := blocks_at_origin t
  show V c main_arg7 (((cfg2.win 1).blk t).view.emb (ix2 k q)) = V c main_arg7 (ix2 k q)
  refine congrArg _ ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- What the one point writes back is the clipped product, read through the output window's block. -/
theorem flushed_eq (c : Dev nD) (t : Fin cfg2.N) :
    (dat2 (F := Ideal) V c).flushed 2 t = ((cfg2.win 2).blk t).view.read (Elt Ideal) (relRelu (V c main_arg4) (V c main_arg7)) := by
  show (cfg2.win 2).cut (grid2.coords t) ((dat2 (F := Ideal) V c).after 2 t) = _
  rw [after2_2]
  unfold out2_2
  rw [View.canon_unit_zero off_zero]
  simp only [View.ld_unit_zero (S := S200x128) off_zero, View.ld_unit_zero (S := S128x128) off_zero]
  obtain ⟨-, -, -, -, e4, e5⟩ := blocks_at_origin t
  funext j
  obtain ⟨p, q, rfl⟩ : ∃ (p : Fin 200) (q : Fin 128), j = ix2 p q := ⟨j 0, j 1, eq_ix2 j⟩
  have hemb : ((cfg2.win 2).blk t).view.emb (ix2 p q) = (ix2 p q : SR128.Idx) := by
    funext a; apply Fin.ext
    match a with
    | ⟨0, _⟩ => show win2_2.index t (0 : Fin 2) * 200 + 1 * p.val = p.val; omega
    | ⟨1, _⟩ => show win2_2.index t (1 : Fin 2) * 128 + 1 * q.val = q.val; omega
  show k2_pay1 (F := Ideal) (iblk2 V c 0 t) (iblk2 V c 1 t) (ix2 p q) = relRelu (V c main_arg4) (V c main_arg7) (((cfg2.win 2).blk t).view.emb (ix2 p q))
  rw [hemb, pay_relu_apply, relRelu_apply]
  refine congrArg (fun s => max s 0) (Finset.sum_congr rfl fun k _ => ?_)
  rw [rel_blk_apply, wgt_blk_apply]

/-- An index of the array lies in point t's block iff each coordinate lies in the block's range on its axis. -/
theorem mem_blk (t : Fin cfg2.N) (i : S200x128.Idx) :
    i ∈ ((cfg2.win 2).blk t).view.set ↔ ∀ a : Fin 2, win2_2.index t a * S200x128.size a ≤ (i a).val ∧ (i a).val < win2_2.index t a * S200x128.size a + S200x128.size a := by
  show i ∈ ((View.whole main_v12).slice (win2_2.rect t)).set ↔ _
  rw [View.set_slice_whole, Rect.mem_set_unit]
  exact Iff.rfl

/-- The first round's relation update: one grid point, the whole 200×128 array at once: max(rel·Wrel, 0). -/
theorem arr2 (c : Dev nD) : (dat2 (F := Ideal) V c).arrAt 2 cfg2.N = relRelu (V c main_arg4) (V c main_arg7) :=
  (dat2 (F := Ideal) V c).arrAt_eq_of_cover 2 (relRelu (V c main_arg4) (V c main_arg7)) (fun t _ => flushed_eq V c t) fun i => by
    refine ⟨t2_0, flush2_2 t2_0, ?_⟩
    rw [mem_blk]
    obtain ⟨-, -, -, -, e4, e5⟩ := blocks_at_origin t2_0
    intro a
    match a with
    | ⟨0, _⟩ =>
      show win2_2.index t2_0 (0 : Fin 2) * 200 ≤ (i 0).val ∧ (i 0).val < win2_2.index t2_0 (0 : Fin 2) * 200 + 200
      have h0 : (i 0).val < 200 := (i 0).isLt
      omega
    | ⟨1, _⟩ =>
      show win2_2.index t2_0 (1 : Fin 2) * 128 ≤ (i 1).val ∧ (i 1).val < win2_2.index t2_0 (1 : Fin 2) * 128 + 128
      have h1 : (i 1).val < 128 := (i 1).isLt
      omega

end Cert.KernelIdeal.GcnReg2

end
-- ==== Proof.Reg3.lean ====
/- The second round's messages: the same edge-block kernel over the second round's gathered rows. -/
import proofs.«424043_j68307159875880_1_alg».proof.Proof.Gen.KernelIdeal.Frame
import proofs.«424043_j68307159875880_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.GcnReg3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset of the body's one load and one store on every axis is zero. -/
theorem hz : (![0, 0] : Fin 2 → Nat) = fun _ => 0 := funext fun a => by fin_cases a <;> rfl

/-- The body's payload at row p, lane q of a block: the difference of the two row blocks there, times the weight
    column's entry of row p (the column is repeated along the lanes). -/
theorem pay_apply (x0 x1 : Vec Ideal S5000x128 .f32) (x2 : Vec Ideal S5000x1 .f32) (p : Fin 5000) (q : Fin 128) :
    k3_pay1 x0 x1 x2 (ix2 p q) = (x0 (ix2 p q) - x1 (ix2 p q)) * x2 (ix2 p (0 : Fin 1)) := by
  unfold k3_pay1
  simp only [shapeCast_self]
  rw [mulf_apply, subf_apply]
  rw [broadcastTo_apply x2 _ (ix2 p q) (ix2 p (0 : Fin 1)) ?_]
  intro a
  match a with
  | ⟨0, _⟩ => rfl
  | ⟨1, _⟩ => rfl

/-- The index maps over the 120 grid points: every window's row-block index is the point's number and its column
    block is 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- One entry: when the three reads sit at the output's index (the weight column's at that row, column 0), the
    entry computed is the message there. -/
theorem point_eq (a0 a1 : SE128.Idx → EReal) (a2 : SE1.Idx → EReal) (i0 i1 i3 : SE128.Idx) (i2 : SE1.Idx)
    (h0 : i0 = i3) (h1 : i1 = i3) (h2 : i2 = ix2 (i3 0) (0 : Fin 1)) :
    (a0 i0 - a1 i1) * a2 i2 = compose a0 a1 a2 i3 := by
  rw [h0, h1, h2]
  obtain ⟨e, l, rfl⟩ : ∃ (e : Fin 600000) (l : Fin 128), i3 = ix2 e l := ⟨i3 0, i3 1, eq_ix2 i3⟩
  rfl

/-- What point t writes back is block t of the message array: the body's payload of the three input blocks, entry
    by entry, with each input block read at the rows the output block occupies. -/
theorem flushed_eq (c : Dev nD) (t : Fin cfg3.N) :
    (dat3 (F := Ideal) V c).flushed 3 t
      = ((cfg3.win 3).blk t).view.read (Elt Ideal) (compose (V c main_v13) (V c main_v14) (V c main_v4)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz]
  show k3_pay1 (iblk3 V c 0 t) (iblk3 V c 1 t) (iblk3 V c 2 t)
      = fun j : S5000x128.Idx => compose (V c main_v13) (V c main_v14) (V c main_v4) (((cfg3.win 3).blk t).view.emb j)
  funext j
  obtain ⟨p, q, rfl⟩ : ∃ (p : Fin 5000) (q : Fin 128), j = ix2 p q := ⟨j 0, j 1, eq_ix2 j⟩
  rw [pay_apply]
  obtain ⟨e00, e01, e10, e11, e20, e21, e30, e31⟩ := idx_facts t
  have hp : p.val < 5000 := p.isLt
  have hq : q.val < 128 := q.isLt
  refine point_eq (V c main_v13) (V c main_v14) (V c main_v4) (((cfg3.win 0).blk t).view.emb (ix2 p q))
    (((cfg3.win 1).blk t).view.emb (ix2 p q)) (((cfg3.win 3).blk t).view.emb (ix2 p q))
    (((cfg3.win 2).blk t).view.emb (ix2 p (0 : Fin 1))) ?_ ?_ ?_
  · funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * q.val = win3_3.index t (1 : Fin 2) * 128 + 1 * q.val; omega
  · funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 128 + 1 * q.val = win3_3.index t (1 : Fin 2) * 128 + 1 * q.val; omega
  · funext a; apply Fin.ext
    match a with
    | ⟨0, _⟩ => show win3_2.index t (0 : Fin 2) * 5000 + 1 * p.val = win3_3.index t (0 : Fin 2) * 5000 + 1 * p.val; omega
    | ⟨1, _⟩ => show win3_2.index t (1 : Fin 2) * 1 + 1 * 0 = 0; omega

/-- An index of the output array lies in point t's block exactly when each coordinate lies in the block's range on
    its axis. -/
theorem mem_blk (t : Fin cfg3.N) (i : S600000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v15).slice (win3_3.rect t)).set ↔ _
  rw [View.set_slice_whole, Rect.mem_set_unit]
  exact Iff.rfl

/-- Every index of the output array is in the block of the point numbered (row / 5000), and every point writes its
    block back. -/
theorem cover (i : S600000x128.Idx) :
    ∃ t : Fin cfg3.N, (cfg3.win 3).flush t = true ∧ i ∈ ((cfg3.win 3).blk t).view.set := by
  have hi0 : (i 0).val < 600000 := (i 0).isLt
  have hi1 : (i 1).val < 128 := (i 1).isLt
  have ht : (i 0).val / 5000 < 120 := by omega
  obtain ⟨-, -, -, -, -, -, e30, e31⟩ := idx_facts ⟨(i 0).val / 5000, ht⟩
  have e30' : win3_3.index ⟨(i 0).val / 5000, ht⟩ (0 : Fin 2) = (i 0).val / 5000 := e30
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    omega
/-- The second round's messages: the same edge-block kernel over the second round's gathered rows. -/
theorem arr3 (c : Dev nD) : (dat3 (F := Ideal) V c).arrAt 3 cfg3.N = compose (V c main_v13) (V c main_v14) (V c main_v4) := by
  exact (dat3 (F := Ideal) V c).arrAt_eq_of_cover 3 _ (fun t _ => flushed_eq V c t) cover

end Cert.KernelIdeal.GcnReg3

end
-- ==== Proof.Reg4.lean ====
/- The second round's node update: agg·W + x·Wself with no clipping. -/
import proofs.«424043_j68307159875880_1_alg».proof.Proof.Gen.KernelIdeal.Frame
import proofs.«424043_j68307159875880_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.GcnReg4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an entry -/

/-- Left operand, row axis: the output's row. -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand, lane axis: the summation index. -/
theorem lhs_lane (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- Right operand, input-lane axis: the summation index. -/
theorem rhs_lane (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Right operand, output-lane axis: the output's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128×128 matrix, into a zero accumulator, at entry (p, q): the sum over the 128 input
    lanes of row p of the block against column q of the matrix. -/
theorem blockDot_apply (x : FVec Ideal S5000x128 .bf16) (w : FVec Ideal S128x128 .bf16) (p : Fin 5000) (q : Fin 128) :
    FloatOps.matmul dot_S5000x128_S128x128_S5000x128_1_0_0_1_n_n none x w (constant (F := Ideal) S5000x128 .f32 0x00000000#32) (ix2 p q)
      = ∑ k : Fin 128, x (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_lane _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_lane _ _).trans hk
    | ⟨1, _⟩ => exact rhs_col _ _)
  rw [el, er]

/-- The body's payload at entry (p, q): both products, added; nothing is clipped in this round. -/
theorem pay_apply (x0 x1 : Vec Ideal S5000x128 .f32) (w0 w1 : Vec Ideal S128x128 .f32) (p : Fin 5000) (q : Fin 128) :
    k4_pay1 x0 x1 w0 w1 (ix2 p q)
      = (∑ k : Fin 128, x0 (ix2 p k) * w0 (ix2 k q)) + ∑ k : Fin 128, x1 (ix2 p k) * w1 (ix2 k q) := by
  unfold k4_pay1
  simp only [addf_apply, matmul, blockDot_apply, truncf_apply, shapeCast_self]

/-! ## From the blocks to the array -/

theorem hz : (![0, 0] : Fin 2 → Nat) = fun _ => 0 := funext fun a => by fin_cases a <;> rfl

/-- The index maps over the 20 grid points: the two node windows and the output sit on row block t, column block 0;
    the two weight windows on block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of block t is row 5000·t + p of the array. -/
theorem row_lt (t : Fin cfg4.N) (p : Fin 5000) : t.val * 5000 + p.val < 100000 := by
  have ht : t.val < 20 := Nat.lt_of_lt_of_eq t.isLt N_4
  have hp := p.isLt
  omega

/-- The aggregated-messages window's block at point t, at (p, k): the array at (5000·t + p, k). -/
theorem agg_apply (c : Dev nD) (t : Fin cfg4.N) (p : Fin 5000) (k : Fin 128) :
    (iblk4 V c 0 t : Vec Ideal S5000x128 .f32) (ix2 p k)
      = (V c main_v18 : SN128.Idx → EReal) (ix2 ⟨t.val * 5000 + p.val, row_lt t p⟩ k) := by
  obtain ⟨e0, e1, -⟩ := idx_facts t
  unfold iblk4
  rw [View.read_apply]
  show V c main_v18 _ = V c main_v18 _
  congr 1
  funext a; apply Fin.ext
  match a with
  | ⟨0, _⟩ => show win4_0.index t (0 : Fin 2) * 5000 + 1 * p.val = t.val * 5000 + p.val; omega
  | ⟨1, _⟩ => show win4_0.index t (1 : Fin 2) * 128 + 1 * k.val = k.val; omega

/-- The node-features window's block at point t, at (p, k): the array at (5000·t + p, k). -/
theorem feat_apply (c : Dev nD) (t : Fin cfg4.N) (p : Fin 5000) (k : Fin 128) :
    (iblk4 V c 1 t : Vec Ideal S5000x128 .f32) (ix2 p k)
      = (V c main_v11 : SN128.Idx → EReal) (ix2 ⟨t.val * 5000 + p.val, row_lt t p⟩ k) := by
  obtain ⟨-, -, e2, e3, -⟩ := idx_facts t
  unfold iblk4
  rw [View.read_apply]
  show V c main_v11 _ = V c main_v11 _
  congr 1
  funext a; apply Fin.ext
  match a with
  | ⟨0, _⟩ => show win4_1.index t (0 : Fin 2) * 5000 + 1 * p.val = t.val * 5000 + p.val; omega
  | ⟨1, _⟩ => show win4_1.index t (1 : Fin 2) * 128 + 1 * k.val = k.val; omega

/-- The first weight window's block at any point is the whole matrix. -/
theorem wmat_apply (c : Dev nD) (t : Fin cfg4.N) (k q : Fin 128) :
    (iblk4 V c 2 t : Vec Ideal S128x128 .f32) (ix2 k q) = (V c main_arg8 : SD.Idx → EReal) (ix2 k q) := by
  obtain ⟨-, -, -, -, e4, e5, -⟩ := idx_facts t
  unfold iblk4
  rw [View.read_apply]
  show V c main_arg8 _ = V c main_arg8 _
  congr 1
  funext a; apply Fin.ext
  match a with
  | ⟨0, _⟩ => show win4_2.index t (0 : Fin 2) * 128 + 1 * k.val = k.val; omega
  | ⟨1, _⟩ => show win4_2.index t (1 : Fin 2) * 128 + 1 * q.val = q.val; omega

/-- The second weight window's block at any point is the whole matrix. -/
theorem wself_apply (c : Dev nD) (t : Fin cfg4.N) (k q : Fin 128) :
    (iblk4 V c 3 t : Vec Ideal S128x128 .f32) (ix2 k q) = (V c main_arg9 : SD.Idx → EReal) (ix2 k q) := by
  obtain ⟨-, -, -, -, -, -, e6, e7, -⟩ := idx_facts t
  unfold iblk4
  rw [View.read_apply]
  show V c main_arg9 _ = V c main_arg9 _
  congr 1
  funext a; apply Fin.ext
  match a with
  | ⟨0, _⟩ => show win4_3.index t (0 : Fin 2) * 128 + 1 * k.val = k.val; omega
  | ⟨1, _⟩ => show win4_3.index t (1 : Fin 2) * 128 + 1 * q.val = q.val; omega

/-- Entry (p, q) of the output's block at point t sits at (5000·t + p, q) of the array. -/
theorem out_emb (t : Fin cfg4.N) (p : Fin 5000) (q : Fin 128) :
    (((cfg4.win 4).blk t).view.emb (ix2 p q) : SN128.Idx) = ix2 ⟨t.val * 5000 + p.val, row_lt t p⟩ q := by
  obtain ⟨-, -, -, -, -, -, -, -, e8, e9⟩ := idx_facts t
  funext a; apply Fin.ext
  match a with
  | ⟨0, _⟩ => show win4_4.index t (0 : Fin 2) * 5000 + 1 * p.val = t.val * 5000 + p.val; omega
  | ⟨1, _⟩ => show win4_4.index t (1 : Fin 2) * 128 + 1 * q.val = q.val; omega

/-- What point t writes back is block t of the unclipped node update of the arrays the launch finds. -/
theorem flushed_eq (c : Dev nD) (t : Fin cfg4.N) :
    (dat4 (F := Ideal) V c).flushed 4 t
      = ((cfg4.win 4).blk t).view.read (Elt Ideal) (nodeLin (V c main_v18) (V c main_v11) (V c main_arg8) (V c main_arg9)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (iblk4 V c 3 t) (ix2 p q)
    = nodeLin (V c main_v18) (V c main_v11) (V c main_arg8) (V c main_arg9) (((cfg4.win 4).blk t).view.emb (ix2 p q))
  rw [out_emb, nodeLin_apply]
  refine (pay_apply _ _ _ _ p q).trans ?_
  simp only [agg_apply, feat_apply, wmat_apply, wself_apply]

/-- An array index is in point t's block iff each coordinate is in the block's range on its axis. -/
theorem mem_blk (t : Fin cfg4.N) (i : SN128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v19).slice (win4_4.rect t)).set ↔ _
  rw [View.set_slice_whole, Rect.mem_set_unit]
  exact Iff.rfl

/-- Every array index lies in some point's block: row r in block r / 5000. -/
theorem covered (i : SN128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_4 _, ?_⟩
  rw [mem_blk]
  obtain ⟨-, -, -, -, -, -, -, -, e8, e9⟩ := idx_facts ⟨(i 0).val / 5000, by rw [hN]; omega⟩
  intro a
  match a with
  | ⟨0, _⟩ => show win4_4.index _ (0 : Fin 2) * 5000 ≤ (i 0).val ∧ (i 0).val < win4_4.index _ (0 : Fin 2) * 5000 + 5000; rw [e8]; show (i 0).val / 5000 * 5000 ≤ (i 0).val ∧ (i 0).val < (i 0).val / 5000 * 5000 + 5000; omega
  | ⟨1, _⟩ => show win4_4.index _ (1 : Fin 2) * 128 ≤ (i 1).val ∧ (i 1).val < win4_4.index _ (1 : Fin 2) * 128 + 128; rw [e9]; omega

/-- The second round's node update: agg·W + x·Wself with no clipping. -/
theorem arr4 (c : Dev nD) : (dat4 (F := Ideal) V c).arrAt 4 cfg4.N = nodeLin (V c main_v18) (V c main_v11) (V c main_arg8) (V c main_arg9) :=
  (dat4 (F := Ideal) V c).arrAt_eq_of_cover 4 _ (fun t _ => flushed_eq V c t) covered

end Cert.KernelIdeal.GcnReg4

end
-- ==== Proof.Reg5.lean ====
/- The second round's relation update: rel·Wrel with no clipping. -/
import proofs.«424043_j68307159875880_1_alg».proof.Proof.Gen.KernelIdeal.Frame
import proofs.«424043_j68307159875880_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.GcnReg5

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Left operand, row axis: the output's row. -/
theorem lhs_rel_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
/-- Left operand, lane axis: the summation index. -/
theorem lhs_rel_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
/-- Right operand, input-lane axis: the summation index. -/
theorem rhs_rel_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
/-- Right operand, output-lane axis: the output's column. -/
theorem rhs_rel_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The matrix product into the zero accumulator, read at row p and column q: the sum over the 128 input lanes. -/
theorem mm_rel_apply (a : FVec Ideal S200x128 .bf16) (b : FVec Ideal S128x128 .bf16) (p : Fin 200) (q : Fin 128) :
    matmul dot_S200x128_S128x128_S200x128_1_0_0_1_n_n none a b (constant (F := Ideal) S200x128 .f32 0x00000000#32) (ix2 p q)
      = ∑ k : Fin 128, a (ix2 p k) * b (ix2 k q) := by
  refine (Ideal.matmul_constant_zero_apply dot_S200x128_S128x128_S200x128_1_0_0_1_n_n none a b (ix2 p q)).trans ?_
  rw [← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun a => Fin.ext (by
    match a with
    | ⟨0, _⟩ => exact lhs_rel_0 _ _
    | ⟨1, _⟩ => exact (lhs_rel_1 _ _).trans hk)
  have er : dot_S200x128_S128x128_S200x128_1_0_0_1_n_n.rhsIdx (ix2 p q) ((contrEquiv1 dot_S200x128_S128x128_S200x128_1_0_0_1_n_n 128 rfl rfl).symm k) = ix2 k q := funext fun a => Fin.ext (by
    match a with
    | ⟨0, _⟩ => exact (rhs_rel_0 _ _).trans hk
    | ⟨1, _⟩ => exact rhs_rel_1 _ _)
  rw [el, er]

/-- The body's payload at row p, column q: the product row, unclipped (the reshape to the same shape changes nothing). -/
theorem pay_lin_apply (x0 : Vec Ideal S200x128 .f32) (w0 : Vec Ideal S128x128 .f32) (p : Fin 200) (q : Fin 128) :
    k5_pay1 (F := Ideal) x0 w0 (ix2 p q) = ∑ k : Fin 128, x0 (ix2 p k) * w0 (ix2 k q) := by
  unfold k5_pay1
  rw [shapeCast_self]
  refine (mm_rel_apply _ _ p q).trans ?_
  rfl

/-- The zero offsets of every access of the body, as a function. -/
theorem off_zero : (![0, 0] : Fin 2 → Nat) = fun _ => 0 := funext fun a => by fin_cases a <;> rfl

/-- At the grid's one point every window sits at block (0, 0). -/
theorem blocks_at_origin : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- The relation window's block is the relation array itself: entry (p, k) of the block is entry (p, k) of the array. -/
theorem rel_blk_apply (c : Dev nD) (t : Fin cfg5.N) (p : Fin 200) (k : Fin 128) :
    (iblk5 (F := Ideal) V c 0 t : Vec Ideal S200x128 .f32) (ix2 p k) = (V c main_v12 : SR128.Idx → EReal) (ix2 p k) := by
  obtain ⟨e0, e1, -, -, -, -⟩ := blocks_at_origin t
  show V c main_v12 (((cfg5.win 0).blk t).view.emb (ix2 p k)) = V c main_v12 (ix2 p k)
  refine congrArg _ ?_
  funext a; apply Fin.ext
  match a with
  | ⟨0, _⟩ => show win5_0.index t (0 : Fin 2) * 200 + 1 * p.val = p.val; omega
  | ⟨1, _⟩ => show win5_0.index t (1 : Fin 2) * 128 + 1 * k.val = k.val; omega

/-- The weight window's block is the weight matrix itself. -/
theorem wgt_blk_apply (c : Dev nD) (t : Fin cfg5.N) (k : Fin 128) (q : Fin 128) :
    (iblk5 (F := Ideal) V c 1 t : Vec Ideal S128x128 .f32) (ix2 k q) = (V c main_arg10 : SD.Idx → EReal) (ix2 k q) := by
  obtain ⟨-, -, e2, e3, -, -⟩ := blocks_at_origin t
  show V c main_arg10 (((cfg5.win 1).blk t).view.emb (ix2 k q)) = V c main_arg10 (ix2 k q)
  refine congrArg _ ?_
  funext a; apply Fin.ext
  match a with
  | ⟨0, _⟩ => show win5_1.index t (0 : Fin 2) * 128 + 1 * k.val = k.val; omega
  | ⟨1, _⟩ => show win5_1.index t (1 : Fin 2) * 128 + 1 * q.val = q.val; omega

/-- What the one point writes back is the product, read through the output window's block. -/
theorem flushed_eq (c : Dev nD) (t : Fin cfg5.N) :
    (dat5 (F := Ideal) V c).flushed 2 t = ((cfg5.win 2).blk t).view.read (Elt Ideal) (relLin (V c main_v12) (V c main_arg10)) := by
  show (cfg5.win 2).cut (grid5.coords t) ((dat5 (F := Ideal) V c).after 2 t) = _
  rw [after5_2]
  unfold out5_2
  rw [View.canon_unit_zero off_zero]
  simp only [View.ld_unit_zero (S := S200x128) off_zero, View.ld_unit_zero (S := S128x128) off_zero]
  obtain ⟨-, -, -, -, e4, e5⟩ := blocks_at_origin t
  funext j
  obtain ⟨p, q, rfl⟩ : ∃ (p : Fin 200) (q : Fin 128), j = ix2 p q := ⟨j 0, j 1, eq_ix2 j⟩
  have hemb : ((cfg5.win 2).blk t).view.emb (ix2 p q) = (ix2 p q : SR128.Idx) := by
    funext a; apply Fin.ext
    match a with
    | ⟨0, _⟩ => show win5_2.index t (0 : Fin 2) * 200 + 1 * p.val = p.val; omega
    | ⟨1, _⟩ => show win5_2.index t (1 : Fin 2) * 128 + 1 * q.val = q.val; omega
  show k5_pay1 (F := Ideal) (iblk5 V c 0 t) (iblk5 V c 1 t) (ix2 p q) = relLin (V c main_v12) (V c main_arg10) (((cfg5.win 2).blk t).view.emb (ix2 p q))
  rw [hemb, pay_lin_apply, relLin_apply]
  refine Finset.sum_congr rfl fun k _ => ?_
  rw [rel_blk_apply, wgt_blk_apply]

/-- An index of the array lies in point t's block iff each coordinate lies in the block's range on its axis. -/
theorem mem_blk (t : Fin cfg5.N) (i : S200x128.Idx) :
    i ∈ ((cfg5.win 2).blk t).view.set ↔ ∀ a : Fin 2, win5_2.index t a * S200x128.size a ≤ (i a).val ∧ (i a).val < win5_2.index t a * S200x128.size a + S200x128.size a := by
  show i ∈ ((View.whole main_v20).slice (win5_2.rect t)).set ↔ _
  rw [View.set_slice_whole, Rect.mem_set_unit]
  exact Iff.rfl

/-- The second round's relation update: rel·Wrel with no clipping. -/
theorem arr5 (c : Dev nD) : (dat5 (F := Ideal) V c).arrAt 2 cfg5.N = relLin (V c main_v12) (V c main_arg10) :=
  (dat5 (F := Ideal) V c).arrAt_eq_of_cover 2 (relLin (V c main_v12) (V c main_arg10)) (fun t _ => flushed_eq V c t) fun i => by
    refine ⟨t5_0, flush5_2 t5_0, ?_⟩
    rw [mem_blk]
    obtain ⟨-, -, -, -, e4, e5⟩ := blocks_at_origin t5_0
    intro a
    match a with
    | ⟨0, _⟩ =>
      show win5_2.index t5_0 (0 : Fin 2) * 200 ≤ (i 0).val ∧ (i 0).val < win5_2.index t5_0 (0 : Fin 2) * 200 + 200
      have h0 : (i 0).val < 200 := (i 0).isLt
      omega
    | ⟨1, _⟩ =>
      show win5_2.index t5_0 (1 : Fin 2) * 128 ≤ (i 1).val ∧ (i 1).val < win5_2.index t5_0 (1 : Fin 2) * 128 + 128
      have h1 : (i 1).val < 128 := (i 1).isLt
      omega

end Cert.KernelIdeal.GcnReg5

end
-- ==== Proof.RegIface.lean ====
/- What each of the six launches leaves in its output array, as one statement per launch over ANY entry contents:
   the two message launches the message array, the two node launches the node update (clipped at 0 in round one),
   the two relation launches the relation update (clipped at 0 in round one). -/
import proofs.«424043_j68307159875880_1_alg».proof.Proof.Gen.KernelIdeal.Frame
import proofs.«424043_j68307159875880_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.GcnRegions

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- The six launches' output arrays, each as the specification's function of the launch's input arrays. -/
structure RegionValues : Prop where
  arr0 : ∀ (V : (c : Dev nD) → (b : Ref sig .tc) → Buf (Elt Ideal) ((c : Thread nD τ).loc b)) (c : Dev nD),
    (dat0 (F := Ideal) V c).arrAt 3 cfg0.N = compose (V c main_v5) (V c main_v6) (V c main_v4)
  arr3 : ∀ (V : (c : Dev nD) → (b : Ref sig .tc) → Buf (Elt Ideal) ((c : Thread nD τ).loc b)) (c : Dev nD),
    (dat3 (F := Ideal) V c).arrAt 3 cfg3.N = compose (V c main_v13) (V c main_v14) (V c main_v4)
  arr1 : ∀ (V : (c : Dev nD) → (b : Ref sig .tc) → Buf (Elt Ideal) ((c : Thread nD τ).loc b)) (c : Dev nD),
    (dat1 (F := Ideal) V c).arrAt 4 cfg1.N = nodeRelu (V c main_v10) (V c main_arg3) (V c main_arg5) (V c main_arg6)
  arr4 : ∀ (V : (c : Dev nD) → (b : Ref sig .tc) → Buf (Elt Ideal) ((c : Thread nD τ).loc b)) (c : Dev nD),
    (dat4 (F := Ideal) V c).arrAt 4 cfg4.N = nodeLin (V c main_v18) (V c main_v11) (V c main_arg8) (V c main_arg9)
  arr2 : ∀ (V : (c : Dev nD) → (b : Ref sig .tc) → Buf (Elt Ideal) ((c : Thread nD τ).loc b)) (c : Dev nD),
    (dat2 (F := Ideal) V c).arrAt 2 cfg2.N = relRelu (V c main_arg4) (V c main_arg7)
  arr5 : ∀ (V : (c : Dev nD) → (b : Ref sig .tc) → Buf (Elt Ideal) ((c : Thread nD τ).loc b)) (c : Dev nD),
    (dat5 (F := Ideal) V c).arrAt 2 cfg5.N = relLin (V c main_v12) (V c main_arg10)

end Cert.KernelIdeal.GcnRegions

end
-- ==== Proof.KTerms.lean ====
/-
  The kernel program's host-side operations between its launches, named as functions of the arrays they read.

  A row-gather in the kernel's program takes an index vector, moves a negative index up by the number of rows,
  gathers, and then overwrites with the not-a-number pattern every row whose moved index is still outside
  [0, rows − 1]. The summing of messages into destination nodes is one scatter-add into a zero array.
-/
import proofs.«424043_j68307159875880_1_alg».proof.Proof.Gen.KernelIdeal
import proofs.«424043_j68307159875880_1_alg».proof.Proof.Spec

noncomputable section

namespace Cert.KernelIdeal.GcnTerms

open Cert.KernelIdeal Cert.KernelIdeal.Facts₀ Cert.Gcn
open Idealize.ShloMosaic Idealize.ShloMosaic.TcCoe

/-- Row 0 of the [2, edges] index array, as a vector: each edge's source node. -/
def srcOf (a0 : IVec S2x600000 32) : IVec S600000 32 :=
  shapeCast S600000 (extractStridedSlice S1x600000 ![0, 0] a0 slices_S2x600000_S1x600000_0_0) shapeCasts_S1x600000_S600000

/-- Row 1: each edge's destination node. -/
def dstOf (a0 : IVec S2x600000 32) : IVec S600000 32 :=
  shapeCast S600000 (extractStridedSlice S1x600000 ![1, 0] a0 slices_S2x600000_S1x600000_1_0) shapeCasts_S1x600000_S600000

/-- The edge weights as a column. -/
def ewCol (a2 : FVec Ideal S600000 .f32) : FVec Ideal S600000x1 .f32 :=
  shapeCast S600000x1 a2 shapeCasts_S600000_S600000x1

/-- An index vector with every negative entry moved up by `n`, as a column of start indices. -/
def normIdx (n : BitVec 32) (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 n))) idx)

/-- Per edge and lane: is the start index inside [0, hi]? -/
def inMask (hi : BitVec 32) (I : IVec S600000x1 32) : IVec S600000x128 1 :=
  broadcastInDim S600000x128 ![0] bcast_S600000_S600000x128_0
    ((fun x v => Host.reduce IntOp.andi x v reducesTo_S600000x1_S600000_d1 h_S_)
      (andi (cmpi .sge I (broadcastInDim S600000x1 ![] bcast_S_S600000x1 (constantI S_ 32 0#32)))
        (cmpi .sle I (broadcastInDim S600000x1 ![0, 1] bcast_S1x1_S600000x1_0_1
          (broadcastInDim S1x1 ![1] bcast_S1_S1x1_1 (constantI S1 32 hi)))))
      (constantI S_ 1 1#1))

/-- The fill for an out-of-range row. -/
def nanFill : FVec Ideal S600000x128 .f32 :=
  broadcastInDim S600000x128 ![] bcast_S_S600000x128 (constant S_ .f32 0x7FC00000#32)

/-- Rows of a node array picked per edge, out-of-range rows filled. -/
def takeN (x : FVec Ideal S100000x128 .f32) (idx : IVec S600000 32) : FVec Ideal S600000x128 .f32 :=
  select (inMask 99999#32 (normIdx 100000#32 idx))
    (Host.gather gather_S100000x128_S600000x1_S600000x128_1_0_n_n_0_1_1128 x (normIdx 100000#32 idx)) nanFill

/-- Rows of a relation array picked per edge, out-of-range rows filled. -/
def takeR (x : FVec Ideal S200x128 .f32) (idx : IVec S600000 32) : FVec Ideal S600000x128 .f32 :=
  select (inMask 199#32 (normIdx 200#32 idx))
    (Host.gather gather_S200x128_S600000x1_S600000x128_1_0_n_n_0_1_1128 x (normIdx 200#32 idx)) nanFill

/-- The same rows with no fill: the plain gather at the moved indices. -/
def gatherN (x : FVec Ideal S100000x128 .f32) (idx : IVec S600000 32) : FVec Ideal S600000x128 .f32 :=
  Host.gather gather_S100000x128_S600000x1_S600000x128_1_0_n_n_0_1_1128 x (normIdx 100000#32 idx)

def gatherR (x : FVec Ideal S200x128 .f32) (idx : IVec S600000 32) : FVec Ideal S600000x128 .f32 :=
  Host.gather gather_S200x128_S600000x1_S600000x128_1_0_n_n_0_1_1128 x (normIdx 200#32 idx)

/-- Messages summed into their destination nodes, from a zero array. -/
def scat (dst : IVec S600000 32) (u : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) u

/-- A source index the row-gather of a `rows`-row array leaves in range: `−rows ≤ i < rows` as signed words. -/
def InRange (rows : BitVec 32) (i : BitVec 32) : Prop :=
  IntOp.cmpi .sge i (-rows) = 1#1 ∧ IntOp.cmpi .slt i rows = 1#1

end Cert.KernelIdeal.GcnTerms

end
-- ==== Proof.FoldA.lean ====
/- The kernel program's buffers after its first round, read back to the arrays it was launched with.
   The program's run is a fold of buffer contents through stretches of host operations and launches; this module walks
   that fold up to the boundary after the third launch: the first round's node features and relation features as functions
   of the launch arrays, and the index vectors, the weight column and the later arguments still as they were. -/
import proofs.«424043_j68307159875880_1_alg».proof.Proof.Gen.KernelIdeal.Frame
import proofs.«424043_j68307159875880_1_alg».proof.Proof.KTerms
import proofs.«424043_j68307159875880_1_alg».proof.Proof.RegIface
import Idealize.ShloMosaic.Lib.StableHlo.Run

set_option maxRecDepth 16384

noncomputable section

namespace Cert.KernelIdeal.GcnFold

open Cert.KernelIdeal Cert.KernelIdeal.Gen Cert.KernelIdeal.GcnTerms Cert.KernelIdeal.GcnRegions Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- The first round's node features, of the launch arrays. -/
def X1 (c : Dev nD) : SN128.Idx → EReal :=
  nodeRelu (scat (dstOf (m ((c : Thread nD τ).loc main_arg0))) (compose (takeN (m ((c : Thread nD τ).loc main_arg3)) (srcOf (m ((c : Thread nD τ).loc main_arg0)))) (takeR (m ((c : Thread nD τ).loc main_arg4)) (m ((c : Thread nD τ).loc main_arg1))) (ewCol (m ((c : Thread nD τ).loc main_arg2)))))
    (m ((c : Thread nD τ).loc main_arg3)) (m ((c : Thread nD τ).loc main_arg5)) (m ((c : Thread nD τ).loc main_arg6))

/-- The first round's relation features, of the launch arrays. -/
def R1 (c : Dev nD) : SR128.Idx → EReal := relRelu (m ((c : Thread nD τ).loc main_arg4)) (m ((c : Thread nD τ).loc main_arg7))

/-- A host stretch leaves a buffer that none of its operations writes as it was. -/
local macro "host_keeps " ops:ident b:ident : tactic =>
  `(tactic| exact StableHlo.after_of_forall_not_mem (b := Proc.devRef .tc $b:ident) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What each host stretch computes, from any contents at its entry -/

/-- The first stretch's source-index vector: row 0 of the index array it reads. -/
theorem src_stretch (V : Valuation τ sig (Elt Ideal)) :
    StableHlo.after hostOps0 V (Proc.devRef .tc main_v1) = srcOf (V (Proc.devRef .tc main_arg0)) := by
  after_results
  rfl
/-- Its destination-index vector: row 1 of the same array. -/
theorem dst_stretch (V : Valuation τ sig (Elt Ideal)) :
    StableHlo.after hostOps0 V (Proc.devRef .tc main_v3) = dstOf (V (Proc.devRef .tc main_arg0)) := by
  after_results
  rfl
/-- Its weight column: the weight vector reshaped. -/
theorem ew_stretch (V : Valuation τ sig (Elt Ideal)) :
    StableHlo.after hostOps0 V (Proc.devRef .tc main_v4) = ewCol (V (Proc.devRef .tc main_arg2)) := by
  after_results
  rfl
/-- The node row-gather: the stretch's last operation selects between the gathered rows and the fill by the in-range
    mask, all three built from the node array and the source indices it entered with. -/
theorem takeN_stretch (V : Valuation τ sig (Elt Ideal)) :
    StableHlo.after hostOps0_1 V (Proc.devRef .tc main_v5) = takeN (V (Proc.devRef .tc main_arg3)) (V (Proc.devRef .tc main_v1)) := by
  after_results_simp
  simp only [takeN, inMask, normIdx, nanFill, cast_eq]
/-- The relation row-gather, the same shape over the relation array and the edge-type indices. -/
theorem takeR_stretch (V : Valuation τ sig (Elt Ideal)) :
    StableHlo.after hostOps0_2 V (Proc.devRef .tc main_v6) = takeR (V (Proc.devRef .tc main_arg4)) (V (Proc.devRef .tc main_arg1)) := by
  after_results_simp
  simp only [takeR, inMask, normIdx, nanFill, cast_eq]
/-- The summing of messages into destination nodes: one scatter-add into a zero array at the destination column. -/
theorem scat_stretch (V : Valuation τ sig (Elt Ideal)) :
    StableHlo.after hostOps1 V (Proc.devRef .tc main_v10) = scat (V (Proc.devRef .tc main_v3)) (V (Proc.devRef .tc main_v7)) := by
  after_results
  rfl

/-! ## The arguments the first round reads, still as launched where they are read -/

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0 main_arg3
    _ = m ((c : Thread nD τ).loc main_arg3) := rfl
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by host_keeps hostOps1 main_arg3
    _ = W3 m ρ c (Proc.devRef .tc main_arg3) := W4_of_ne m ρ c main_arg3 (by decide)
    _ = W2 m ρ c (Proc.devRef .tc main_arg3) := by host_keeps hostOps0_2 main_arg3
    _ = W1 m ρ c (Proc.devRef .tc main_arg3) := by host_keeps hostOps0_1 main_arg3
    _ = m ((c : Thread nD τ).loc main_arg3) := W1_arg3 m ρ c
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by host_keeps hostOps1 main_arg5
    _ = W3 m ρ c (Proc.devRef .tc main_arg5) := W4_of_ne m ρ c main_arg5 (by decide)
    _ = W2 m ρ c (Proc.devRef .tc main_arg5) := by host_keeps hostOps0_2 main_arg5
    _ = W1 m ρ c (Proc.devRef .tc main_arg5) := by host_keeps hostOps0_1 main_arg5
    _ = W0 m ρ c (Proc.devRef .tc main_arg5) := by host_keeps hostOps0 main_arg5
    _ = m ((c : Thread nD τ).loc main_arg5) := rfl
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by host_keeps hostOps1 main_arg6
    _ = W3 m ρ c (Proc.devRef .tc main_arg6) := W4_of_ne m ρ c main_arg6 (by decide)
    _ = W2 m ρ c (Proc.devRef .tc main_arg6) := by host_keeps hostOps0_2 main_arg6
    _ = W1 m ρ c (Proc.devRef .tc main_arg6) := by host_keeps hostOps0_1 main_arg6
    _ = W0 m ρ c (Proc.devRef .tc main_arg6) := by host_keeps hostOps0 main_arg6
    _ = m ((c : Thread nD τ).loc main_arg6) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by host_keeps hostOps0_1 main_arg4
    _ = W0 m ρ c (Proc.devRef .tc main_arg4) := by host_keeps hostOps0 main_arg4
    _ = m ((c : Thread nD τ).loc main_arg4) := rfl
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1 main_arg4
    _ = W3 m ρ c (Proc.devRef .tc main_arg4) := W4_of_ne m ρ c main_arg4 (by decide)
    _ = W2 m ρ c (Proc.devRef .tc main_arg4) := by host_keeps hostOps0_2 main_arg4
    _ = m ((c : Thread nD τ).loc main_arg4) := W2_arg4 m ρ c
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keeps hostOps1 main_arg7
    _ = W3 m ρ c (Proc.devRef .tc main_arg7) := W4_of_ne m ρ c main_arg7 (by decide)
    _ = W2 m ρ c (Proc.devRef .tc main_arg7) := by host_keeps hostOps0_2 main_arg7
    _ = W1 m ρ c (Proc.devRef .tc main_arg7) := by host_keeps hostOps0_1 main_arg7
    _ = W0 m ρ c (Proc.devRef .tc main_arg7) := by host_keeps hostOps0 main_arg7
    _ = m ((c : Thread nD τ).loc main_arg7) := rfl
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by host_keeps hostOps0_1 main_arg1
    _ = W0 m ρ c (Proc.devRef .tc main_arg1) := by host_keeps hostOps0 main_arg1
    _ = m ((c : Thread nD τ).loc main_arg1) := rfl

/-! ## The index vectors and the weight column, carried from the first stretch -/

theorem W1_v1 (c : Dev nD) : W1 m ρ c (Proc.devRef .tc main_v1) = srcOf (m ((c : Thread nD τ).loc main_arg0)) :=
  src_stretch (W0 m ρ c)
theorem W1_v3 (c : Dev nD) : W1 m ρ c (Proc.devRef .tc main_v3) = dstOf (m ((c : Thread nD τ).loc main_arg0)) :=
  dst_stretch (W0 m ρ c)
theorem W1_v4 (c : Dev nD) : W1 m ρ c (Proc.devRef .tc main_v4) = ewCol (m ((c : Thread nD τ).loc main_arg2)) :=
  ew_stretch (W0 m ρ c)
theorem W4_v3 (c : Dev nD) : W4 m ρ c (Proc.devRef .tc main_v3) = dstOf (m ((c : Thread nD τ).loc main_arg0)) :=
  calc W4 m ρ c (Proc.devRef .tc main_v3)
    _ = W3 m ρ c (Proc.devRef .tc main_v3) := W4_of_ne m ρ c main_v3 (by decide)
    _ = W2 m ρ c (Proc.devRef .tc main_v3) := by host_keeps hostOps0_2 main_v3
    _ = W1 m ρ c (Proc.devRef .tc main_v3) := by host_keeps hostOps0_1 main_v3
    _ = dstOf (m ((c : Thread nD τ).loc main_arg0)) := W1_v3 m ρ c
theorem W3_v4 (c : Dev nD) : W3 m ρ c (Proc.devRef .tc main_v4) = ewCol (m ((c : Thread nD τ).loc main_arg2)) :=
  calc W3 m ρ c (Proc.devRef .tc main_v4)
    _ = W2 m ρ c (Proc.devRef .tc main_v4) := by host_keeps hostOps0_2 main_v4
    _ = W1 m ρ c (Proc.devRef .tc main_v4) := by host_keeps hostOps0_1 main_v4
    _ = ewCol (m ((c : Thread nD τ).loc main_arg2)) := W1_v4 m ρ c

/-! ## The two gathers at the first launch's entry -/

theorem W2_v5 (c : Dev nD) : W2 m ρ c (Proc.devRef .tc main_v5) = takeN (m ((c : Thread nD τ).loc main_arg3)) (srcOf (m ((c : Thread nD τ).loc main_arg0))) := by
  show StableHlo.after hostOps0_1 (W1 m ρ c) (Proc.devRef .tc main_v5) = _
  rw [takeN_stretch (W1 m ρ c), W1_arg3 m ρ c, W1_v1 m ρ c]
theorem W3_v5 (c : Dev nD) : W3 m ρ c (Proc.devRef .tc main_v5) = takeN (m ((c : Thread nD τ).loc main_arg3)) (srcOf (m ((c : Thread nD τ).loc main_arg0))) :=
  calc W3 m ρ c (Proc.devRef .tc main_v5)
    _ = W2 m ρ c (Proc.devRef .tc main_v5) := by host_keeps hostOps0_2 main_v5
    _ = takeN (m ((c : Thread nD τ).loc main_arg3)) (srcOf (m ((c : Thread nD τ).loc main_arg0))) := W2_v5 m ρ c
theorem W3_v6 (c : Dev nD) : W3 m ρ c (Proc.devRef .tc main_v6) = takeR (m ((c : Thread nD τ).loc main_arg4)) (m ((c : Thread nD τ).loc main_arg1)) := by
  show StableHlo.after hostOps0_2 (W2 m ρ c) (Proc.devRef .tc main_v6) = _
  rw [takeR_stretch (W2 m ρ c), W2_arg4 m ρ c, W2_arg1 m ρ c]

variable (hR : RegionValues)
include hR

/-! ## The first round: messages, their sums, the node update -/

/-- The first launch's output array: the message array of the two gathers and the weight column it entered with. -/
theorem W4_v7 (c : Dev nD) : W4 m ρ c (Proc.devRef .tc main_v7) = compose (takeN (m ((c : Thread nD τ).loc main_arg3)) (srcOf (m ((c : Thread nD τ).loc main_arg0)))) (takeR (m ((c : Thread nD τ).loc main_arg4)) (m ((c : Thread nD τ).loc main_arg1))) (ewCol (m ((c : Thread nD τ).loc main_arg2))) := by
  show W4 m ρ c (Proc.devRef .tc (Pipeline.arrRef spec0 3)) = _
  rw [W4_arr m ρ c 3, hR.arr0 (V3 m ρ) c]
  show compose (W3 m ρ c (Proc.devRef .tc main_v5)) (W3 m ρ c (Proc.devRef .tc main_v6)) (W3 m ρ c (Proc.devRef .tc main_v4)) = _
  rw [W3_v5 m ρ c, W3_v6 m ρ c, W3_v4 m ρ c]
/-- The messages summed into their destination nodes. -/
theorem W5_v10 (c : Dev nD) : W5 m ρ c (Proc.devRef .tc main_v10) = scat (dstOf (m ((c : Thread nD τ).loc main_arg0))) (compose (takeN (m ((c : Thread nD τ).loc main_arg3)) (srcOf (m ((c : Thread nD τ).loc main_arg0)))) (takeR (m ((c : Thread nD τ).loc main_arg4)) (m ((c : Thread nD τ).loc main_arg1))) (ewCol (m ((c : Thread nD τ).loc main_arg2)))) := by
  show StableHlo.after hostOps1 (W4 m ρ c) (Proc.devRef .tc main_v10) = _
  rw [scat_stretch (W4 m ρ c), W4_v3 m ρ c, W4_v7 m ρ hR c]
/-- The second launch's output array: the node update of the sums and the three arguments it reads. -/
theorem W6_v11 (c : Dev nD) : W6 m ρ c (Proc.devRef .tc main_v11) = X1 m c := by
  unfold X1
  show W6 m ρ c (Proc.devRef .tc (Pipeline.arrRef spec1 4)) = _
  rw [W6_arr m ρ c 4, hR.arr1 (V5 m ρ) c]
  show nodeRelu (W5 m ρ c (Proc.devRef .tc main_v10)) (W5 m ρ c (Proc.devRef .tc main_arg3)) (W5 m ρ c (Proc.devRef .tc main_arg5)) (W5 m ρ c (Proc.devRef .tc main_arg6)) = _
  rw [W5_v10 m ρ hR c, W5_arg3 m ρ c, W5_arg5 m ρ c, W5_arg6 m ρ c]

/-! ## The boundary after the third launch -/

theorem W7_v11 (c : Dev nD) : W7 m ρ c (Proc.devRef .tc main_v11) = X1 m c := by
  exact (W7_of_ne m ρ c main_v11 (by decide)).trans (W6_v11 m ρ hR c)
theorem W7_v12 (c : Dev nD) : W7 m ρ c (Proc.devRef .tc main_v12) = R1 m c := by
  unfold R1
  show W7 m ρ c (Proc.devRef .tc (Pipeline.arrRef spec2 2)) = _
  rw [W7_arr m ρ c 2, hR.arr2 (V6 m ρ) c]
  show relRelu (W6 m ρ c (Proc.devRef .tc main_arg4)) (W6 m ρ c (Proc.devRef .tc main_arg7)) = _
  rw [W6_arg4 m ρ c, W6_arg7 m ρ c]
theorem W7_v1 (c : Dev nD) : W7 m ρ c (Proc.devRef .tc main_v1) = srcOf (m ((c : Thread nD τ).loc main_arg0)) := by
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by host_keeps hostOps1 main_v1
    _ = W3 m ρ c (Proc.devRef .tc main_v1) := W4_of_ne m ρ c main_v1 (by decide)
    _ = W2 m ρ c (Proc.devRef .tc main_v1) := by host_keeps hostOps0_2 main_v1
    _ = W1 m ρ c (Proc.devRef .tc main_v1) := by host_keeps hostOps0_1 main_v1
    _ = srcOf (m ((c : Thread nD τ).loc main_arg0)) := W1_v1 m ρ c
theorem W7_v3 (c : Dev nD) : W7 m ρ c (Proc.devRef .tc main_v3) = dstOf (m ((c : Thread nD τ).loc main_arg0)) := by
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1 main_v3
    _ = dstOf (m ((c : Thread nD τ).loc main_arg0)) := W4_v3 m ρ c
theorem W7_v4 (c : Dev nD) : W7 m ρ c (Proc.devRef .tc main_v4) = ewCol (m ((c : Thread nD τ).loc main_arg2)) := by
  calc W7 m ρ c (Proc.devRef .tc main_v4)
    _ = W6 m ρ c (Proc.devRef .tc main_v4) := W7_of_ne m ρ c main_v4 (by decide)
    _ = W5 m ρ c (Proc.devRef .tc main_v4) := W6_of_ne m ρ c main_v4 (by decide)
    _ = W4 m ρ c (Proc.devRef .tc main_v4) := by host_keeps hostOps1 main_v4
    _ = W3 m ρ c (Proc.devRef .tc main_v4) := (W4_arr m ρ c 2).trans (((dat0 (V3 m ρ) c).arrAt_in 2 rfl _).trans (A_eq0 (V3 m ρ) c 2))
    _ = ewCol (m ((c : Thread nD τ).loc main_arg2)) := W3_v4 m ρ c
theorem W7_arg1 (c : Dev nD) : W7 m ρ c (Proc.devRef .tc main_arg1) = (m ((c : Thread nD τ).loc main_arg1)) := by
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := by host_keeps hostOps1 main_arg1
    _ = W3 m ρ c (Proc.devRef .tc main_arg1) := W4_of_ne m ρ c main_arg1 (by decide)
    _ = W2 m ρ c (Proc.devRef .tc main_arg1) := by host_keeps hostOps0_2 main_arg1
    _ = m ((c : Thread nD τ).loc main_arg1) := W2_arg1 m ρ c
theorem W7_arg8 (c : Dev nD) : W7 m ρ c (Proc.devRef .tc main_arg8) = (m ((c : Thread nD τ).loc main_arg8)) := by
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1 main_arg8
    _ = W3 m ρ c (Proc.devRef .tc main_arg8) := W4_of_ne m ρ c main_arg8 (by decide)
    _ = W2 m ρ c (Proc.devRef .tc main_arg8) := by host_keeps hostOps0_2 main_arg8
    _ = W1 m ρ c (Proc.devRef .tc main_arg8) := by host_keeps hostOps0_1 main_arg8
    _ = W0 m ρ c (Proc.devRef .tc main_arg8) := by host_keeps hostOps0 main_arg8
    _ = m ((c : Thread nD τ).loc main_arg8) := rfl
theorem W7_arg9 (c : Dev nD) : W7 m ρ c (Proc.devRef .tc main_arg9) = (m ((c : Thread nD τ).loc main_arg9)) := by
  calc W7 m ρ c (Proc.devRef .tc main_arg9)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps hostOps1 main_arg9
    _ = W3 m ρ c (Proc.devRef .tc main_arg9) := W4_of_ne m ρ c main_arg9 (by decide)
    _ = W2 m ρ c (Proc.devRef .tc main_arg9) := by host_keeps hostOps0_2 main_arg9
    _ = W1 m ρ c (Proc.devRef .tc main_arg9) := by host_keeps hostOps0_1 main_arg9
    _ = W0 m ρ c (Proc.devRef .tc main_arg9) := by host_keeps hostOps0 main_arg9
    _ = m ((c : Thread nD τ).loc main_arg9) := rfl
theorem W7_arg10 (c : Dev nD) : W7 m ρ c (Proc.devRef .tc main_arg10) = (m ((c : Thread nD τ).loc main_arg10)) := by
  calc W7 m ρ c (Proc.devRef .tc main_arg10)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_keeps hostOps1 main_arg10
    _ = W3 m ρ c (Proc.devRef .tc main_arg10) := W4_of_ne m ρ c main_arg10 (by decide)
    _ = W2 m ρ c (Proc.devRef .tc main_arg10) := by host_keeps hostOps0_2 main_arg10
    _ = W1 m ρ c (Proc.devRef .tc main_arg10) := by host_keeps hostOps0_1 main_arg10
    _ = W0 m ρ c (Proc.devRef .tc main_arg10) := by host_keeps hostOps0 main_arg10
    _ = m ((c : Thread nD τ).loc main_arg10) := rfl

end Cert.KernelIdeal.GcnFold

end
-- ==== Proof.FoldB.lean ====
/- The kernel program's two result buffers, read back to the arrays it was launched with: the fold of buffer contents
   walked from the boundary after the first round through the second round's gathers, launches and scatter to the end. -/
import proofs.«424043_j68307159875880_1_alg».proof.Proof.Gen.KernelIdeal.Frame
import proofs.«424043_j68307159875880_1_alg».proof.Proof.KTerms
import proofs.«424043_j68307159875880_1_alg».proof.Proof.RegIface
import proofs.«424043_j68307159875880_1_alg».proof.Proof.FoldA
import Idealize.ShloMosaic.Lib.StableHlo.Run

set_option maxRecDepth 16384

noncomputable section

namespace Cert.KernelIdeal.GcnFold

open Cert.KernelIdeal Cert.KernelIdeal.Gen Cert.KernelIdeal.GcnTerms Cert.KernelIdeal.GcnRegions Cert.Gcn
open Idealize.ShloMosaic Idealize.ShloMosaic.TcCoe Idealize.SL.Sem Idealize.ShloMosaic.StableHlo

variable (hR : RegionValues) (m : (ℓ : Loc nD τ sig) → Buf (Elt Ideal) ℓ) (ρ : Dev nD → PrngReg)
include hR

/-- A stretch of host operations leaves a buffer none of them writes as it was. -/
local macro "host_keeps" ops:ident : tactic =>
  `(tactic| ((refine StableHlo.after_of_forall_not_mem _ _ (List.forall_iff_forall_mem.mp ?_)); (simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]); (repeat' apply And.intro); (all_goals exact StableHlo.devRef_ne_of_ne (by decide))))

/-! ## The three stretches that compute: two row-gathers and the scatter, over any entry contents -/

omit hR in
/-- The second round's node gather: the stretch's result buffer holds the filled row-gather of what the node-feature
    buffer and the source-index buffer held at its entry. -/
theorem takeN_stretch₂ (V : Valuation τ sig (Elt Ideal)) :
    StableHlo.after hostOps3 V (Proc.devRef .tc main_v13)
      = takeN (V (Proc.devRef .tc main_v11)) (V (Proc.devRef .tc main_v1)) := by
  after_results_simp
  simp only [takeN, inMask, normIdx, nanFill, cast_eq]

omit hR in
/-- The second round's relation gather, likewise, of the relation-feature buffer and the edge-type argument. -/
theorem takeR_stretch₂ (V : Valuation τ sig (Elt Ideal)) :
    StableHlo.after hostOps3_1 V (Proc.devRef .tc main_v14)
      = takeR (V (Proc.devRef .tc main_v12)) (V (Proc.devRef .tc main_arg1)) := by
  after_results_simp
  simp only [takeR, inMask, normIdx, nanFill, cast_eq]

omit hR in
/-- The second round's sum of messages into destination nodes, of the destination-index buffer and the message buffer. -/
theorem scat_stretch₂ (V : Valuation τ sig (Elt Ideal)) :
    StableHlo.after hostOps4 V (Proc.devRef .tc main_v18)
      = scat (V (Proc.devRef .tc main_v3)) (V (Proc.devRef .tc main_v15)) := by
  after_results
  rfl

/-! ## After the node gather's stretch (boundary 8) -/

theorem W8_v12 (c : Dev nD) : W8 m ρ c (Proc.devRef .tc main_v12) = R1 m c := by
  refine Eq.trans ?_ (W7_v12 m ρ hR c)
  show StableHlo.after hostOps3 (W7 m ρ c) (Proc.devRef .tc main_v12) = _
  host_keeps hostOps3

theorem W8_arg10 (c : Dev nD) : W8 m ρ c (Proc.devRef .tc main_arg10) = (m ((c : Thread nD τ).loc main_arg10)) := by
  refine Eq.trans ?_ (W7_arg10 m ρ hR c)
  show StableHlo.after hostOps3 (W7 m ρ c) (Proc.devRef .tc main_arg10) = _
  host_keeps hostOps3

theorem W8_v11 (c : Dev nD) : W8 m ρ c (Proc.devRef .tc main_v11) = X1 m c := by
  refine Eq.trans ?_ (W7_v11 m ρ hR c)
  show StableHlo.after hostOps3 (W7 m ρ c) (Proc.devRef .tc main_v11) = _
  host_keeps hostOps3

theorem W8_arg8 (c : Dev nD) : W8 m ρ c (Proc.devRef .tc main_arg8) = (m ((c : Thread nD τ).loc main_arg8)) := by
  refine Eq.trans ?_ (W7_arg8 m ρ hR c)
  show StableHlo.after hostOps3 (W7 m ρ c) (Proc.devRef .tc main_arg8) = _
  host_keeps hostOps3

theorem W8_arg9 (c : Dev nD) : W8 m ρ c (Proc.devRef .tc main_arg9) = (m ((c : Thread nD τ).loc main_arg9)) := by
  refine Eq.trans ?_ (W7_arg9 m ρ hR c)
  show StableHlo.after hostOps3 (W7 m ρ c) (Proc.devRef .tc main_arg9) = _
  host_keeps hostOps3

theorem W8_v3 (c : Dev nD) : W8 m ρ c (Proc.devRef .tc main_v3) = dstOf (m ((c : Thread nD τ).loc main_arg0)) := by
  refine Eq.trans ?_ (W7_v3 m ρ hR c)
  show StableHlo.after hostOps3 (W7 m ρ c) (Proc.devRef .tc main_v3) = _
  host_keeps hostOps3

theorem W8_arg1 (c : Dev nD) : W8 m ρ c (Proc.devRef .tc main_arg1) = (m ((c : Thread nD τ).loc main_arg1)) := by
  refine Eq.trans ?_ (W7_arg1 m ρ hR c)
  show StableHlo.after hostOps3 (W7 m ρ c) (Proc.devRef .tc main_arg1) = _
  host_keeps hostOps3

theorem W8_v4 (c : Dev nD) : W8 m ρ c (Proc.devRef .tc main_v4) = ewCol (m ((c : Thread nD τ).loc main_arg2)) := by
  refine Eq.trans ?_ (W7_v4 m ρ hR c)
  show StableHlo.after hostOps3 (W7 m ρ c) (Proc.devRef .tc main_v4) = _
  host_keeps hostOps3

/-- The gathered node rows: the filled row-gather of the first round's node features at the source indices. -/
theorem W8_v13 (c : Dev nD) : W8 m ρ c (Proc.devRef .tc main_v13) = takeN (X1 m c) (srcOf (m ((c : Thread nD τ).loc main_arg0))) := by
  refine (takeN_stretch₂ (W7 m ρ c)).trans ?_
  rw [W7_v11 m ρ hR c, W7_v1 m ρ hR c]

/-! ## After the relation gather's stretch (boundary 9: the second message launch's entry) -/

theorem W9_v12 (c : Dev nD) : W9 m ρ c (Proc.devRef .tc main_v12) = R1 m c := by
  refine Eq.trans ?_ (W8_v12 hR m ρ c)
  show StableHlo.after hostOps3_1 (W8 m ρ c) (Proc.devRef .tc main_v12) = _
  host_keeps hostOps3_1

theorem W9_arg10 (c : Dev nD) : W9 m ρ c (Proc.devRef .tc main_arg10) = (m ((c : Thread nD τ).loc main_arg10)) := by
  refine Eq.trans ?_ (W8_arg10 hR m ρ c)
  show StableHlo.after hostOps3_1 (W8 m ρ c) (Proc.devRef .tc main_arg10) = _
  host_keeps hostOps3_1

theorem W9_v11 (c : Dev nD) : W9 m ρ c (Proc.devRef .tc main_v11) = X1 m c := by
  refine Eq.trans ?_ (W8_v11 hR m ρ c)
  show StableHlo.after hostOps3_1 (W8 m ρ c) (Proc.devRef .tc main_v11) = _
  host_keeps hostOps3_1

theorem W9_arg8 (c : Dev nD) : W9 m ρ c (Proc.devRef .tc main_arg8) = (m ((c : Thread nD τ).loc main_arg8)) := by
  refine Eq.trans ?_ (W8_arg8 hR m ρ c)
  show StableHlo.after hostOps3_1 (W8 m ρ c) (Proc.devRef .tc main_arg8) = _
  host_keeps hostOps3_1

theorem W9_arg9 (c : Dev nD) : W9 m ρ c (Proc.devRef .tc main_arg9) = (m ((c : Thread nD τ).loc main_arg9)) := by
  refine Eq.trans ?_ (W8_arg9 hR m ρ c)
  show StableHlo.after hostOps3_1 (W8 m ρ c) (Proc.devRef .tc main_arg9) = _
  host_keeps hostOps3_1

theorem W9_v3 (c : Dev nD) : W9 m ρ c (Proc.devRef .tc main_v3) = dstOf (m ((c : Thread nD τ).loc main_arg0)) := by
  refine Eq.trans ?_ (W8_v3 hR m ρ c)
  show StableHlo.after hostOps3_1 (W8 m ρ c) (Proc.devRef .tc main_v3) = _
  host_keeps hostOps3_1

theorem W9_v4 (c : Dev nD) : W9 m ρ c (Proc.devRef .tc main_v4) = ewCol (m ((c : Thread nD τ).loc main_arg2)) := by
  refine Eq.trans ?_ (W8_v4 hR m ρ c)
  show StableHlo.after hostOps3_1 (W8 m ρ c) (Proc.devRef .tc main_v4) = _
  host_keeps hostOps3_1

theorem W9_v13 (c : Dev nD) : W9 m ρ c (Proc.devRef .tc main_v13) = takeN (X1 m c) (srcOf (m ((c : Thread nD τ).loc main_arg0))) := by
  refine Eq.trans ?_ (W8_v13 hR m ρ c)
  show StableHlo.after hostOps3_1 (W8 m ρ c) (Proc.devRef .tc main_v13) = _
  host_keeps hostOps3_1

/-- The gathered relation rows: the filled row-gather of the first round's relation features at the edge types. -/
theorem W9_v14 (c : Dev nD) : W9 m ρ c (Proc.devRef .tc main_v14) = takeR (R1 m c) (m ((c : Thread nD τ).loc main_arg1)) := by
  refine (takeR_stretch₂ (W8 m ρ c)).trans ?_
  rw [W8_v12 hR m ρ c, W8_arg1 hR m ρ c]

/-! ## After the second message launch (boundary 10) -/

theorem W10_v12 (c : Dev nD) : W10 m ρ c (Proc.devRef .tc main_v12) = R1 m c :=
  (W10_of_ne m ρ c main_v12 (by decide)).trans (W9_v12 hR m ρ c)

theorem W10_arg10 (c : Dev nD) : W10 m ρ c (Proc.devRef .tc main_arg10) = (m ((c : Thread nD τ).loc main_arg10)) :=
  (W10_of_ne m ρ c main_arg10 (by decide)).trans (W9_arg10 hR m ρ c)

theorem W10_v11 (c : Dev nD) : W10 m ρ c (Proc.devRef .tc main_v11) = X1 m c :=
  (W10_of_ne m ρ c main_v11 (by decide)).trans (W9_v11 hR m ρ c)

theorem W10_arg8 (c : Dev nD) : W10 m ρ c (Proc.devRef .tc main_arg8) = (m ((c : Thread nD τ).loc main_arg8)) :=
  (W10_of_ne m ρ c main_arg8 (by decide)).trans (W9_arg8 hR m ρ c)

theorem W10_arg9 (c : Dev nD) : W10 m ρ c (Proc.devRef .tc main_arg9) = (m ((c : Thread nD τ).loc main_arg9)) :=
  (W10_of_ne m ρ c main_arg9 (by decide)).trans (W9_arg9 hR m ρ c)

theorem W10_v3 (c : Dev nD) : W10 m ρ c (Proc.devRef .tc main_v3) = dstOf (m ((c : Thread nD τ).loc main_arg0)) :=
  (W10_of_ne m ρ c main_v3 (by decide)).trans (W9_v3 hR m ρ c)

/-- The launch's output array: the messages of the gathered rows and the weight column, by the launch's own value. -/
theorem W10_v15 (c : Dev nD) : W10 m ρ c (Proc.devRef .tc main_v15) = compose (takeN (X1 m c) (srcOf (m ((c : Thread nD τ).loc main_arg0)))) (takeR (R1 m c) (m ((c : Thread nD τ).loc main_arg1))) (ewCol (m ((c : Thread nD τ).loc main_arg2))) := by
  refine ((W10_arr m ρ c 3).trans (hR.arr3 (V9 m ρ) c)).trans ?_
  show compose (W9 m ρ c (Proc.devRef .tc main_v13)) (W9 m ρ c (Proc.devRef .tc main_v14)) (W9 m ρ c (Proc.devRef .tc main_v4)) = _
  rw [W9_v13 hR m ρ c, W9_v14 hR m ρ c, W9_v4 hR m ρ c]

/-! ## After the scatter's stretch (boundary 11: the second node launch's entry) -/

theorem W11_v12 (c : Dev nD) : W11 m ρ c (Proc.devRef .tc main_v12) = R1 m c := by
  refine Eq.trans ?_ (W10_v12 hR m ρ c)
  show StableHlo.after hostOps4 (W10 m ρ c) (Proc.devRef .tc main_v12) = _
  host_keeps hostOps4

theorem W11_arg10 (c : Dev nD) : W11 m ρ c (Proc.devRef .tc main_arg10) = (m ((c : Thread nD τ).loc main_arg10)) := by
  refine Eq.trans ?_ (W10_arg10 hR m ρ c)
  show StableHlo.after hostOps4 (W10 m ρ c) (Proc.devRef .tc main_arg10) = _
  host_keeps hostOps4

theorem W11_v11 (c : Dev nD) : W11 m ρ c (Proc.devRef .tc main_v11) = X1 m c := by
  refine Eq.trans ?_ (W10_v11 hR m ρ c)
  show StableHlo.after hostOps4 (W10 m ρ c) (Proc.devRef .tc main_v11) = _
  host_keeps hostOps4

theorem W11_arg8 (c : Dev nD) : W11 m ρ c (Proc.devRef .tc main_arg8) = (m ((c : Thread nD τ).loc main_arg8)) := by
  refine Eq.trans ?_ (W10_arg8 hR m ρ c)
  show StableHlo.after hostOps4 (W10 m ρ c) (Proc.devRef .tc main_arg8) = _
  host_keeps hostOps4

theorem W11_arg9 (c : Dev nD) : W11 m ρ c (Proc.devRef .tc main_arg9) = (m ((c : Thread nD τ).loc main_arg9)) := by
  refine Eq.trans ?_ (W10_arg9 hR m ρ c)
  show StableHlo.after hostOps4 (W10 m ρ c) (Proc.devRef .tc main_arg9) = _
  host_keeps hostOps4

/-- The aggregated messages: the second round's messages summed into their destination nodes. -/
theorem W11_v18 (c : Dev nD) : W11 m ρ c (Proc.devRef .tc main_v18) = scat (dstOf (m ((c : Thread nD τ).loc main_arg0))) (compose (takeN (X1 m c) (srcOf (m ((c : Thread nD τ).loc main_arg0)))) (takeR (R1 m c) (m ((c : Thread nD τ).loc main_arg1))) (ewCol (m ((c : Thread nD τ).loc main_arg2)))) := by
  refine (scat_stretch₂ (W10 m ρ c)).trans ?_
  rw [W10_v3 hR m ρ c, W10_v15 hR m ρ c]

/-! ## After the second node launch (boundary 12) -/

theorem W12_v12 (c : Dev nD) : W12 m ρ c (Proc.devRef .tc main_v12) = R1 m c :=
  (W12_of_ne m ρ c main_v12 (by decide)).trans (W11_v12 hR m ρ c)

theorem W12_arg10 (c : Dev nD) : W12 m ρ c (Proc.devRef .tc main_arg10) = (m ((c : Thread nD τ).loc main_arg10)) :=
  (W12_of_ne m ρ c main_arg10 (by decide)).trans (W11_arg10 hR m ρ c)

/-- The launch's output array: the unclipped node update of the aggregated messages and the first round's features. -/
theorem W12_v19 (c : Dev nD) : W12 m ρ c (Proc.devRef .tc main_v19)
    = nodeLin (scat (dstOf (m ((c : Thread nD τ).loc main_arg0))) (compose (takeN (X1 m c) (srcOf (m ((c : Thread nD τ).loc main_arg0)))) (takeR (R1 m c) (m ((c : Thread nD τ).loc main_arg1))) (ewCol (m ((c : Thread nD τ).loc main_arg2))))) (X1 m c) (m ((c : Thread nD τ).loc main_arg8)) (m ((c : Thread nD τ).loc main_arg9)) := by
  refine ((W12_arr m ρ c 4).trans (hR.arr4 (V11 m ρ) c)).trans ?_
  show nodeLin (W11 m ρ c (Proc.devRef .tc main_v18)) (W11 m ρ c (Proc.devRef .tc main_v11)) (W11 m ρ c (Proc.devRef .tc main_arg8)) (W11 m ρ c (Proc.devRef .tc main_arg9)) = _
  rw [W11_v18 hR m ρ c, W11_v11 hR m ρ c, W11_arg8 hR m ρ c, W11_arg9 hR m ρ c]

/-! ## The two results at the last boundary -/

/-- The node result is the two-round function of the launch arrays, with the kernel program's own gathers and scatter. -/
theorem W13_v19 (c : Dev nD) : W13 m ρ c (Proc.devRef .tc main_v19)
    = gcnX2 (fun x => takeN x (srcOf (m ((c : Thread nD τ).loc main_arg0)))) (fun r => takeR r (m ((c : Thread nD τ).loc main_arg1))) (scat (dstOf (m ((c : Thread nD τ).loc main_arg0)))) (ewCol (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W13_of_ne m ρ c main_v19 (by decide)).trans (W12_v19 hR m ρ c)).trans ?_
  simp only [gcnX2, X1, R1]

/-- The relation result is the two-round function of the launch arrays. -/
theorem W13_v20 (c : Dev nD) : W13 m ρ c (Proc.devRef .tc main_v20) = gcnR2 (m ((c : Thread nD τ).loc main_arg4)) (m ((c : Thread nD τ).loc main_arg7)) (m ((c : Thread nD τ).loc main_arg10)) := by
  refine ((W13_arr m ρ c 2).trans (hR.arr5 (V12 m ρ) c)).trans ?_
  show relLin (W12 m ρ c (Proc.devRef .tc main_v12)) (W12 m ρ c (Proc.devRef .tc main_arg10)) = _
  rw [W12_v12 hR m ρ c, W12_arg10 hR m ρ c]
  simp only [gcnR2, R1]

end Cert.KernelIdeal.GcnFold

end
-- ==== Proof.TakeMask.lean ====
/-
  Where every source index is in range, the filled row-gather is the plain one.

  A signed 32-bit index i with −rows ≤ i < rows, moved up by `rows` when negative, lies in [0, rows − 1]: the
  in-range mask is then set on every edge and lane, and selecting by it returns the gathered rows everywhere.
  The precondition's two last conjuncts say exactly that of the source-node indices (against the 100000 node rows)
  and of the relation indices (against the 200 relation rows).
-/
import proofs.«424043_j68307159875880_1_alg».proof.Proof.KTerms
import proofs.«424043_j68307159875880_1_alg».proof.Defs
import proofs.«424043_j68307159875880_1_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.GcnTake

open Cert.KernelIdeal Cert.KernelIdeal.Facts₀ Cert.KernelIdeal.GcnTerms Cert.Gcn
open Idealize.ShloMosaic Idealize.ShloMosaic.TcCoe Idealize.ShloMosaic.ValueIdx Idealize.SL.Sem

/-- A one-bit compare result is set exactly when the compared relation holds. -/
private theorem ofBool_one (b : Bool) : BitVec.ofBool b = 1#1 ↔ b = true := by cases b <;> decide

/-- The moved index: a signed word i with −R ≤ i < R, raised by R when negative, lies in [0, R − 1]. -/
private theorem moved_inRange (rows hi i : BitVec 32) (R : Int) (hR0 : 0 < R) (hR1 : R < 2 ^ 30)
    (hrows : rows.toInt = R) (hneg : (-rows).toInt = -R) (hhi : hi.toInt = R - 1) (h : InRange rows i) :
    IntOp.cmpi .sge (Scalar.select (IntOp.cmpi .slt i 0#32) (IntOp.addi i rows) i) 0#32 = 1#1
    ∧ IntOp.cmpi .sle (Scalar.select (IntOp.cmpi .slt i 0#32) (IntOp.addi i rows) i) hi = 1#1 := by
  obtain ⟨hlo, hup⟩ := h
  unfold IntOp.cmpi at hlo hup
  rw [ofBool_one] at hlo hup
  simp only [BitVec.sle, BitVec.slt, decide_eq_true_eq] at hlo hup
  rw [hneg] at hlo
  rw [hrows] at hup
  have hz : (0#32 : BitVec 32).toInt = 0 := by decide
  by_cases hn : i.toInt < 0
  · have hc : IntOp.cmpi .slt i 0#32 = 1#1 := by
      unfold IntOp.cmpi; rw [ofBool_one]; simp only [BitVec.slt, decide_eq_true_eq, hz]; exact hn
    rw [hc, select_one]
    have hs : (IntOp.addi i rows).toInt = i.toInt + R := by
      unfold IntOp.addi
      rw [BitVec.toInt_add, hrows]
      exact Int.bmod_eq_of_le_mul_two (by omega) (by omega)
    unfold IntOp.cmpi
    rw [ofBool_one, ofBool_one]
    simp only [BitVec.sle, decide_eq_true_eq, hz, hs, hhi]
    omega
  · have hc : IntOp.cmpi .slt i 0#32 = 0#1 := by
      apply eq_zero_of_ne_one
      unfold IntOp.cmpi; rw [ofBool_one]; simp only [BitVec.slt, decide_eq_true_eq, hz]; exact hn
    rw [hc, select_zero]
    unfold IntOp.cmpi
    rw [ofBool_one, ofBool_one]
    simp only [BitVec.sle, decide_eq_true_eq, hz, hhi]
    omega

/-- An and-fold from 1 over entries that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- A vector kept as a column reads, at row p, the vector's entry p. -/
private theorem col_apply {α : Type} (v : S600000.Idx → α) (i : S600000x1.Idx) :
    broadcastInDim S600000x1 ![0] bcast_S600000_S600000x1_0 v i = v (ix1 (i 0)) := by
  simp only [broadcastInDim]
  congr 1
  funext a
  match a with
  | ⟨0, _⟩ =>
    apply Fin.ext
    split
    · next h1 => change (600000 : Nat) = 1 at h1; omega
    · rfl

/-- The moved index at a row of the column, as a scalar expression of the vector's entry. -/
private theorem normIdx_apply (n : BitVec 32) (idx : IVec S600000 32) (i : S600000x1.Idx) :
    normIdx n idx i
      = Scalar.select (IntOp.cmpi .slt (idx (ix1 (i 0))) 0#32) (IntOp.addi (idx (ix1 (i 0))) n) (idx (ix1 (i 0))) := by
  unfold normIdx
  rw [col_apply]
  rfl

/-- With every index in range of R rows, the in-range mask against R − 1 is set on every edge and lane. -/
private theorem mask_one (rows hi : BitVec 32) (R : Int) (hR0 : 0 < R) (hR1 : R < 2 ^ 30)
    (hrows : rows.toInt = R) (hneg : (-rows).toInt = -R) (hhi : hi.toInt = R - 1)
    (idx : IVec S600000 32) (h : ∀ e : Fin 600000, InRange rows (idx (ix1 e))) (j : S600000x128.Idx) :
    inMask hi (normIdx rows idx) j = 1#1 := by
  unfold inMask
  simp only [broadcastInDim]
  rw [Host.reduce_eq_foldl]
  refine foldl_andi_one _ (fun i => ?_) _
  have hk := moved_inRange rows hi (idx (ix1 (i 0))) R hR0 hR1 hrows hneg hhi (h (i 0))
  show IntOp.andi (IntOp.cmpi .sge (normIdx rows idx i) 0#32) (IntOp.cmpi .sle (normIdx rows idx i) hi) = 1#1
  rw [normIdx_apply, hk.1, hk.2]
  decide

/-- With every index in range of the 100000 node rows, no row is filled. -/
theorem takeN_eq (x : FVec Ideal S100000x128 .f32) (idx : IVec S600000 32)
    (h : ∀ e : Fin 600000, InRange 100000#32 (idx (ix1 e))) : takeN x idx = gatherN x idx := by
  funext j
  unfold takeN gatherN
  rw [select_apply,
    mask_one 100000#32 99999#32 100000 (by decide) (by norm_num) (by decide) (by decide) (by decide) idx h j,
    select_one]

/-- With every index in range of the 200 relation rows, no row is filled. -/
theorem takeR_eq (x : FVec Ideal S200x128 .f32) (idx : IVec S600000 32)
    (h : ∀ e : Fin 600000, InRange 200#32 (idx (ix1 e))) : takeR x idx = gatherR x idx := by
  funext j
  unfold takeR gatherR
  rw [select_apply,
    mask_one 200#32 199#32 200 (by decide) (by norm_num) (by decide) (by decide) (by decide) idx h j,
    select_one]

/-- The precondition's index conjuncts, read per edge. -/
theorem range_of_pre (m : (ℓ : Loc nD τ sig) → Buf (Elt Ideal) ℓ)
    (h : Cert.Pre_KernelIdeal (hPre_finite_inputs := Cert.Pre_finite_inputs.Gen.facts) m) (c : Dev nD) :
    (∀ e : Fin 600000, InRange 100000#32 (srcOf (m ((c.tc : Thread nD τ).loc main_arg0)) (ix1 e)))
    ∧ (∀ e : Fin 600000, InRange 200#32 (m ((c.tc : Thread nD τ).loc main_arg1) (ix1 e))) := by
  haveI : Subsingleton Cert.Pre_finite_inputs.S_.Idx := ⟨fun a b => funext fun d => d.elim0⟩
  have e := congrFun (h c) ValueIdx.ix0
  dsimp only [Cert.Pre_finite_inputs.fn, Cert.Pre_finite_inputs.fn_part1, Cert.Pre_finite_inputs.fn_part2,
    Cert.Pre_finite_inputs.fn_part3] at e
  obtain ⟨e54, e60⟩ := IntOp.andi_eq_one.1 e
  obtain ⟨-, e53⟩ := IntOp.andi_eq_one.1 e54
  have hN : -(100000#32) = 4294867296#32 := by decide
  have hR : -(200#32) = 4294967096#32 := by decide
  refine ⟨fun e' => ?_, fun e' => ?_⟩
  · have q := IntOp.andi_eq_one.1 (Host.reduce_andi_all _ _ _ _ _ e53 (ix1 e'))
    unfold InRange
    rw [hN]
    exact q
  · have q := IntOp.andi_eq_one.1 (Host.reduce_andi_all _ _ _ _ _ e60 (ix1 e'))
    unfold InRange
    rw [hR]
    exact q

end Cert.KernelIdeal.GcnTake

end
-- ==== Proof.RTerms.lean ====
/-
  The reference program's host operations, named as functions of the arrays they read: the plain row-gather at
  indices whose negative entries were moved up by the number of rows, the scatter-add of messages into a zero
  array, and the edge weights as a column.
-/
import proofs.«424043_j68307159875880_1_alg».proof.Proof.Gen.ReferenceIdeal
import proofs.«424043_j68307159875880_1_alg».proof.Proof.Spec

noncomputable section

namespace Cert.ReferenceIdeal.GcnTerms

open Cert.ReferenceIdeal Cert.ReferenceIdeal.Facts₀ Cert.Gcn
open Idealize.ShloMosaic Idealize.ShloMosaic.TcCoe

/-- Row 0 of the [2, edges] index array, as a vector: each edge's source node. -/
def srcOf (a0 : IVec S2x600000 32) : IVec S600000 32 :=
  shapeCast S600000 (extractStridedSlice S1x600000 ![0, 0] a0 slices_S2x600000_S1x600000_0_0) shapeCasts_S1x600000_S600000

/-- Row 1: each edge's destination node. -/
def dstOf (a0 : IVec S2x600000 32) : IVec S600000 32 :=
  shapeCast S600000 (extractStridedSlice S1x600000 ![1, 0] a0 slices_S2x600000_S1x600000_1_0) shapeCasts_S1x600000_S600000

/-- The edge weights as a column. -/
def ewCol (a2 : FVec Ideal S600000 .f32) : FVec Ideal S600000x1 .f32 :=
  broadcastInDim S600000x1 ![0] bcast_S600000_S600000x1_0 a2

/-- An index vector with every negative entry moved up by `n`, as a column of start indices. -/
def normIdx (n : BitVec 32) (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 n))) idx)

/-- Rows of a node array picked per edge. -/
def gatherN (x : FVec Ideal S100000x128 .f32) (idx : IVec S600000 32) : FVec Ideal S600000x128 .f32 :=
  Host.gather gather_S100000x128_S600000x1_S600000x128_1_0_n_n_0_1_1128 x (normIdx 100000#32 idx)

/-- Rows of a relation array picked per edge. -/
def gatherR (x : FVec Ideal S200x128 .f32) (idx : IVec S600000 32) : FVec Ideal S600000x128 .f32 :=
  Host.gather gather_S200x128_S600000x1_S600000x128_1_0_n_n_0_1_1128 x (normIdx 200#32 idx)

/-- Messages summed into their destination nodes, from a zero array. -/
def scat (dst : IVec S600000 32) (u : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) u

end Cert.ReferenceIdeal.GcnTerms

end
-- ==== Proof.RefValue.lean ====
/- The reference program's two results, read as the two-round function of its arguments.
   Its run states each result as one composed term of array operations; each stage of that term is one of the
   specification's functions: a difference times a broadcast weight column is the message array, a sum of two
   matrix products (clipped at 0 or not) the node update, one matrix product the relation update. -/
import proofs.«424043_j68307159875880_1_alg».proof.Proof.Gen.ReferenceIdeal.Run
import proofs.«424043_j68307159875880_1_alg».proof.Proof.Gen.ReferenceIdeal.Read
import proofs.«424043_j68307159875880_1_alg».proof.Proof.RTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.GcnRef

open Cert.ReferenceIdeal Cert.ReferenceIdeal.Facts₀ Cert.ReferenceIdeal.GcnTerms Cert.Gcn
open Idealize.ShloMosaic Idealize.ShloMosaic.TcCoe Idealize.ShloMosaic.ValueIdx Idealize.SL.Sem

/-! ## The stages, as equations between functions of arbitrary operand arrays -/

/-- The message array: a difference of two edge arrays times the weight column spread over the lanes. -/
theorem msg_eq (a b : FVec Ideal S600000x128 .f32) (col : FVec Ideal S600000x1 .f32) :
    mulf (subf a b) (broadcastInDim S600000x128 ![0, 1] bcast_S600000x1_S600000x128_0_1 col) = compose a b col := by
  funext i
  obtain ⟨p, q, rfl⟩ : ∃ (p : Fin 600000) (q : Fin 128), i = ix2 p q := ⟨i 0, i 1, eq_ix2 i⟩
  rw [compose_apply, mulf_apply, subf_apply]
  congr 1
  exact broadcastInDim_apply _ bcast_S600000x1_S600000x128_0_1 col (ix2 p q) (ix2 p (0 : Fin 1)) (fun a => match a with
    | ⟨0, _⟩ => by show p.val = if (600000 : Nat) = 1 then 0 else p.val; rw [if_neg (by decide)]
    | ⟨1, _⟩ => by show 0 = if (1 : Nat) = 1 then 0 else q.val; rw [if_pos rfl])

/-- A node-array product read at an entry: row p against column q. -/
theorem dotN_apply (a : FVec Ideal S100000x128 .f32) (W : FVec Ideal S128x128 .f32) (p : Fin 100000) (q : Fin 128) :
    Host.dotGeneral (F := Ideal) dot_S100000x128_S128x128_S100000x128_1_0_0_1_n_n none a W (ix2 p q)
      = ∑ k : Fin 128, a (ix2 p k) * W (ix2 k q) := by
  have h := Cert.ReferenceIdeal.Read.val_main_v26_apply a W (ix2 p q)
  unfold Cert.ReferenceIdeal.Read.val_main_v26 at h
  rw [h]
  refine Finset.sum_congr rfl fun k _ => ?_
  have el : Cert.ReferenceIdeal.Read.lidx_main_v26 (ix2 p q) k = ix2 p k :=
    funext fun a => Fin.ext (by match a with | ⟨0, _⟩ => rfl | ⟨1, _⟩ => rfl)
  have er : Cert.ReferenceIdeal.Read.ridx_main_v26 (ix2 p q) k = ix2 k q :=
    funext fun a => Fin.ext (by match a with | ⟨0, _⟩ => rfl | ⟨1, _⟩ => rfl)
  rw [el, er]

/-- A relation-array product read at an entry. -/
theorem dotR_apply (a : FVec Ideal S200x128 .f32) (W : FVec Ideal S128x128 .f32) (p : Fin 200) (q : Fin 128) :
    Host.dotGeneral (F := Ideal) dot_S200x128_S128x128_S200x128_1_0_0_1_n_n none a W (ix2 p q)
      = ∑ k : Fin 128, a (ix2 p k) * W (ix2 k q) := by
  have h := Cert.ReferenceIdeal.Read.val_main_v28_apply a W (ix2 p q)
  unfold Cert.ReferenceIdeal.Read.val_main_v28 at h
  rw [h]
  refine Finset.sum_congr rfl fun k _ => ?_
  have el : Cert.ReferenceIdeal.Read.lidx_main_v28 (ix2 p q) k = ix2 p k :=
    funext fun a => Fin.ext (by match a with | ⟨0, _⟩ => rfl | ⟨1, _⟩ => rfl)
  have er : Cert.ReferenceIdeal.Read.ridx_main_v28 (ix2 p q) k = ix2 k q :=
    funext fun a => Fin.ext (by match a with | ⟨0, _⟩ => rfl | ⟨1, _⟩ => rfl)
  rw [el, er]

/-- The zero array over the nodes reads 0 everywhere. -/
theorem zeroN_apply (i : S100000x128.Idx) :
    broadcastInDim S100000x128 ![] bcast_S_S100000x128 (constant (F := Ideal) S_ .f32 0x00000000#32) i = 0 := by
  rw [broadcastInDim_apply _ bcast_S_S100000x128 (constant (F := Ideal) S_ .f32 0x00000000#32) i ix0 (fun a => a.elim0),
    constant_apply, Ideal.ofBits_zero_f32]

/-- The zero array over the relations reads 0 everywhere. -/
theorem zeroR_apply (i : S200x128.Idx) :
    broadcastInDim S200x128 ![] bcast_S_S200x128 (constant (F := Ideal) S_ .f32 0x00000000#32) i = 0 := by
  rw [broadcastInDim_apply _ bcast_S_S200x128 (constant (F := Ideal) S_ .f32 0x00000000#32) i ix0 (fun a => a.elim0),
    constant_apply, Ideal.ofBits_zero_f32]

/-- The unclipped node update. -/
theorem nodeLin_eq (a x : FVec Ideal S100000x128 .f32) (W Ws : FVec Ideal S128x128 .f32) :
    addf (Host.dotGeneral (F := Ideal) dot_S100000x128_S128x128_S100000x128_1_0_0_1_n_n none a W)
      (Host.dotGeneral (F := Ideal) dot_S100000x128_S128x128_S100000x128_1_0_0_1_n_n none x Ws) = nodeLin a x W Ws := by
  funext i
  obtain ⟨p, q, rfl⟩ : ∃ (p : Fin 100000) (q : Fin 128), i = ix2 p q := ⟨i 0, i 1, eq_ix2 i⟩
  rw [nodeLin_apply, addf_apply, dotN_apply, dotN_apply]

/-- The clipped node update. -/
theorem nodeRelu_eq (a x : FVec Ideal S100000x128 .f32) (W Ws : FVec Ideal S128x128 .f32) :
    maximumf (addf (Host.dotGeneral (F := Ideal) dot_S100000x128_S128x128_S100000x128_1_0_0_1_n_n none a W)
      (Host.dotGeneral (F := Ideal) dot_S100000x128_S128x128_S100000x128_1_0_0_1_n_n none x Ws))
      (broadcastInDim S100000x128 ![] bcast_S_S100000x128 (constant (F := Ideal) S_ .f32 0x00000000#32)) = nodeRelu a x W Ws := by
  funext i
  obtain ⟨p, q, rfl⟩ : ∃ (p : Fin 100000) (q : Fin 128), i = ix2 p q := ⟨i 0, i 1, eq_ix2 i⟩
  rw [nodeRelu_apply, maximumf_apply, zeroN_apply, addf_apply, dotN_apply, dotN_apply]

/-- The unclipped relation update. -/
theorem relLin_eq (r : FVec Ideal S200x128 .f32) (Wr : FVec Ideal S128x128 .f32) :
    Host.dotGeneral (F := Ideal) dot_S200x128_S128x128_S200x128_1_0_0_1_n_n none r Wr = relLin r Wr := by
  funext i
  obtain ⟨p, q, rfl⟩ : ∃ (p : Fin 200) (q : Fin 128), i = ix2 p q := ⟨i 0, i 1, eq_ix2 i⟩
  rw [relLin_apply, dotR_apply]

/-- The clipped relation update. -/
theorem relRelu_eq (r : FVec Ideal S200x128 .f32) (Wr : FVec Ideal S128x128 .f32) :
    maximumf (Host.dotGeneral (F := Ideal) dot_S200x128_S128x128_S200x128_1_0_0_1_n_n none r Wr)
      (broadcastInDim S200x128 ![] bcast_S_S200x128 (constant (F := Ideal) S_ .f32 0x00000000#32)) = relRelu r Wr := by
  funext i
  obtain ⟨p, q, rfl⟩ : ∃ (p : Fin 200) (q : Fin 128), i = ix2 p q := ⟨i 0, i 1, eq_ix2 i⟩
  rw [relRelu_apply, maximumf_apply, zeroR_apply, dotR_apply]

/-- Clipping the unclipped node update at 0 is the clipped one. -/
theorem nodeRelu_of_lin (a x : FVec Ideal S100000x128 .f32) (W Ws : FVec Ideal S128x128 .f32) :
    maximumf (F := Ideal) (nodeLin a x W Ws)
      (broadcastInDim S100000x128 ![] bcast_S_S100000x128 (constant (F := Ideal) S_ .f32 0x00000000#32)) = nodeRelu a x W Ws := by
  rw [← nodeLin_eq, nodeRelu_eq]

/-- Clipping the unclipped relation update at 0 is the clipped one. -/
theorem relRelu_of_lin (r : FVec Ideal S200x128 .f32) (Wr : FVec Ideal S128x128 .f32) :
    maximumf (F := Ideal) (relLin r Wr)
      (broadcastInDim S200x128 ![] bcast_S_S200x128 (constant (F := Ideal) S_ .f32 0x00000000#32)) = relRelu r Wr := by
  rw [← relLin_eq, relRelu_eq]

/-! ## The two results -/

variable (m : (ℓ : Loc nD τ sig) → Buf (Elt Ideal) ℓ)

/-- The node result's composed term is the two-round function, with the reference's own gathers and scatter. -/
theorem ref_x (c : Dev nD) : Cert.ReferenceIdeal.Value.res_main_v58 (F := Ideal) m c
    = gcnX2 (fun x => gatherN x (srcOf (m ((c.tc : Thread nD τ).loc main_arg0)))) (fun r => gatherR r (m ((c.tc : Thread nD τ).loc main_arg1))) (scat (dstOf (m ((c.tc : Thread nD τ).loc main_arg0)))) (ewCol (m ((c.tc : Thread nD τ).loc main_arg2)))
        (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v58 gcnX2
  -- innermost stages first: the clipped relation update, the clipped node update of round one (it occurs twice, with
  -- the same operands), the two message arrays, then the unclipped node update of round two
  rw [relRelu_eq, nodeRelu_eq, msg_eq, msg_eq, nodeLin_eq]
  -- what is left on both sides is the same gathers and scatter of the same operands, under their names on the right
  unfold gatherN gatherR scat srcOf dstOf ewCol normIdx
  rfl

/-- The relation result's composed term is the two-round function. -/
theorem ref_r (c : Dev nD) :
    Host.dotGeneral (F := Ideal) (φ₁ := .f32) (φ₂ := .f32) dot_S200x128_S128x128_S200x128_1_0_0_1_n_n none
        (maximumf (Host.dotGeneral (F := Ideal) (φ₁ := .f32) (φ₂ := .f32) dot_S200x128_S128x128_S200x128_1_0_0_1_n_n none (m ((c.tc : Thread nD τ).loc main_arg4)) (m ((c.tc : Thread nD τ).loc main_arg7)))
          (broadcastInDim S200x128 ![] bcast_S_S200x128 (constant (F := Ideal) S_ .f32 0x00000000#32))) (m ((c.tc : Thread nD τ).loc main_arg10))
      = gcnR2 (m ((c.tc : Thread nD τ).loc main_arg4)) (m ((c.tc : Thread nD τ).loc main_arg7)) (m ((c.tc : Thread nD τ).loc main_arg10)) := by
  unfold gcnR2
  rw [relRelu_eq, relLin_eq]

end Cert.ReferenceIdeal.GcnRef

end
-- ==== Proof.Bridge.lean ====
/-
  The two programs spell the same host operations: the row-gather at moved indices, the scatter-add into a zero
  array and the two rows of the edge-index array are letter for letter the same operations, and the weight column is a
  reshape of the weight vector in one program and a broadcast of it along a new unit axis in the other: both put
  weight e at row e of the column.
-/
import proofs.«424043_j68307159875880_1_alg».proof.Proof.KTerms
import proofs.«424043_j68307159875880_1_alg».proof.Proof.RTerms
import Idealize.ShloMosaic.Lib.ValueIdx
import Idealize.ShloMosaic.Lib.Pipeline.Value

noncomputable section

namespace Cert.GcnBridge

open Idealize.ShloMosaic Idealize.ShloMosaic.TcCoe Idealize.ShloMosaic.ValueIdx Cert.Gcn

theorem srcOf_eq (a0 : IVec Cert.KernelIdeal.S2x600000 32) :
    Cert.ReferenceIdeal.GcnTerms.srcOf a0 = Cert.KernelIdeal.GcnTerms.srcOf a0 := rfl

theorem dstOf_eq (a0 : IVec Cert.KernelIdeal.S2x600000 32) :
    Cert.ReferenceIdeal.GcnTerms.dstOf a0 = Cert.KernelIdeal.GcnTerms.dstOf a0 := rfl

theorem gatherN_eq (x : FVec Ideal Cert.KernelIdeal.S100000x128 .f32) (idx : IVec Cert.KernelIdeal.S600000 32) :
    Cert.ReferenceIdeal.GcnTerms.gatherN x idx = Cert.KernelIdeal.GcnTerms.gatherN x idx := rfl

theorem gatherR_eq (x : FVec Ideal Cert.KernelIdeal.S200x128 .f32) (idx : IVec Cert.KernelIdeal.S600000 32) :
    Cert.ReferenceIdeal.GcnTerms.gatherR x idx = Cert.KernelIdeal.GcnTerms.gatherR x idx := rfl

theorem scat_eq (dst : IVec Cert.KernelIdeal.S600000 32) (u : FVec Ideal Cert.KernelIdeal.S600000x128 .f32) :
    Cert.ReferenceIdeal.GcnTerms.scat dst u = Cert.KernelIdeal.GcnTerms.scat dst u := rfl

/-- Row e of the weight column is weight e, whether the column is a reshape or a broadcast of the weight vector. -/
theorem ewCol_eq (a2 : FVec Ideal Cert.KernelIdeal.S600000 .f32) :
    Cert.ReferenceIdeal.GcnTerms.ewCol a2 = Cert.KernelIdeal.GcnTerms.ewCol a2 := by
  funext i
  obtain ⟨e, z, rfl⟩ : ∃ (e : Fin 600000) (z : Fin 1), i = ix2 e z := ⟨i 0, i 1, eq_ix2 i⟩
  unfold Cert.ReferenceIdeal.GcnTerms.ewCol Cert.KernelIdeal.GcnTerms.ewCol
  rw [broadcastInDim_apply _ _ a2 (ix2 e z) (ix1 e) (fun a => by
        match a with
        | ⟨0, _⟩ => rfl),
      shapeCast_apply a2 _ (ix2 e z) (ix1 e) (by
        rw [Shape.rowMajor_val_one, Shape.rowMajor_val_two]
        show e.val = e.val * 1 + z.val
        omega)]

/-- The two-round function depends on the gathers, the scatter and the weight column only through their values. -/
theorem gcnX2_congr {g1 g1' : (SN128.Idx → EReal) → SE128.Idx → EReal} {g2 g2' : (SR128.Idx → EReal) → SE128.Idx → EReal}
    {sc sc' : (SE128.Idx → EReal) → SN128.Idx → EReal} {ew ew' : SE1.Idx → EReal}
    (h1 : g1 = g1') (h2 : g2 = g2') (h3 : sc = sc') (h4 : ew = ew')
    (x : SN128.Idx → EReal) (rel : SR128.Idx → EReal) (W0 Ws0 Wr0 W1 Ws1 : SD.Idx → EReal) :
    gcnX2 g1 g2 sc ew x rel W0 Ws0 Wr0 W1 Ws1 = gcnX2 g1' g2' sc' ew' x rel W0 Ws0 Wr0 W1 Ws1 := by
  subst h1 h2 h3 h4
  rfl

end Cert.GcnBridge

end
-- ==== Proof.lean ====
/-
  Two rounds of relational message passing, a tiled kernel program against its array-level reference, equal over
  the extended reals.

  Per round both programs gather a source row and a relation row per edge, form (source − relation) · weight, sum the
  messages into their destination nodes, and update every node by agg·W + x·Wself and every relation by rel·Wrel;
  round one clips both at 0. The kernel program does the three dense stages in tiled launches (blocks of 5000 edges,
  blocks of 5000 nodes, the whole relation array), and its row-gather overwrites an out-of-range row with a
  not-a-number fill where the reference's plain gather clamps. Under the precondition every source and relation index
  is in range (−rows ≤ i < rows: a negative index counts from the end in both programs), so no row is filled and
  the two gathers agree; every other stage is the same sum of the same products, tiled or not.

  The pieces: each launch's output array as one function of its input arrays (six modules, over the generated
  launch proofs); the kernel program's buffers read through its run to its two results (two modules); the filled
  gather under the precondition; the reference's composed result terms read as the same two-round function; and here
  the two runs side by side.
-/
import proofs.«424043_j68307159875880_1_alg».proof.Defs
import proofs.«424043_j68307159875880_1_alg».proof.Proof.Gen.Kernel
import proofs.«424043_j68307159875880_1_alg».proof.Proof.Gen.Kernel.Frame
import proofs.«424043_j68307159875880_1_alg».proof.Proof.Gen.KernelIdeal
import proofs.«424043_j68307159875880_1_alg».proof.Proof.Gen.KernelIdeal.Frame
import proofs.«424043_j68307159875880_1_alg».proof.Proof.Gen.ReferenceIdeal
import proofs.«424043_j68307159875880_1_alg».proof.Proof.Gen.ReferenceIdeal.Run
import proofs.«424043_j68307159875880_1_alg».proof.Proof.Gen.Pre_finite_inputs
import proofs.«424043_j68307159875880_1_alg».proof.Proof.ValueRun
import proofs.«424043_j68307159875880_1_alg».proof.Proof.Reg0
import proofs.«424043_j68307159875880_1_alg».proof.Proof.Reg1
import proofs.«424043_j68307159875880_1_alg».proof.Proof.Reg2
import proofs.«424043_j68307159875880_1_alg».proof.Proof.Reg3
import proofs.«424043_j68307159875880_1_alg».proof.Proof.Reg4
import proofs.«424043_j68307159875880_1_alg».proof.Proof.Reg5
import proofs.«424043_j68307159875880_1_alg».proof.Proof.RegIface
import proofs.«424043_j68307159875880_1_alg».proof.Proof.FoldA
import proofs.«424043_j68307159875880_1_alg».proof.Proof.FoldB
import proofs.«424043_j68307159875880_1_alg».proof.Proof.TakeMask
import proofs.«424043_j68307159875880_1_alg».proof.Proof.RefValue
import proofs.«424043_j68307159875880_1_alg».proof.Proof.Bridge
import Idealize.ShloMosaic.Adequacy
import Idealize.ShloMosaic.Init

noncomputable section

namespace Cert.Proof

open Idealize.ShloMosaic Idealize.ShloMosaic.TcCoe Idealize.SL.Sem Cert.Gcn Cert.GcnBridge

/-- What each of the six launches leaves in its output array. -/
theorem regionValues : Cert.KernelIdeal.GcnRegions.RegionValues where
  arr0 := Cert.KernelIdeal.GcnReg0.arr0
  arr3 := Cert.KernelIdeal.GcnReg3.arr3
  arr1 := Cert.KernelIdeal.GcnReg1.arr1
  arr4 := Cert.KernelIdeal.GcnReg4.arr4
  arr2 := Cert.KernelIdeal.GcnReg2.arr2
  arr5 := Cert.KernelIdeal.GcnReg5.arr5

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the two-round function of the launch arrays in their result buffers: the kernel program by
    its launches' output arrays read through its run, the reference by its composed terms; the two spell the gathers
    differently, and in range the spellings agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => gcnX2 (fun x => Cert.KernelIdeal.GcnTerms.takeN x (Cert.KernelIdeal.GcnTerms.srcOf (m ((c.tc : Thread Cert.KernelIdeal.nD Cert.KernelIdeal.τ).loc Cert.KernelIdeal.main_arg0))))
      (fun r => Cert.KernelIdeal.GcnTerms.takeR r (m ((c.tc : Thread Cert.KernelIdeal.nD Cert.KernelIdeal.τ).loc Cert.KernelIdeal.main_arg1)))
      (Cert.KernelIdeal.GcnTerms.scat (Cert.KernelIdeal.GcnTerms.dstOf (m ((c.tc : Thread Cert.KernelIdeal.nD Cert.KernelIdeal.τ).loc Cert.KernelIdeal.main_arg0))))
      (Cert.KernelIdeal.GcnTerms.ewCol (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => gcnR2 (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.GcnFold.W13_v19 regionValues m ρ c),
        (h c).2.1.trans (Cert.KernelIdeal.GcnFold.W13_v20 regionValues m ρ c), (h c).2.2⟩)
      (Cert.KernelIdeal.GcnRun.run_values m ρ)
  · refine (θ_run Cert.ReferenceIdeal.defs _ _).mono (fun r h c => ⟨?_, ?_, (h c).2.2⟩)
      (Cert.ReferenceIdeal.Value.run (F := Ideal) m' ρ')
    · obtain ⟨hs, ht⟩ := Cert.KernelIdeal.GcnTake.range_of_pre m hpre c
      obtain ⟨e0, e1, e2, e3, e4, e5, e6, e7, e8, e9, e10⟩ := hagree c
      rw [(h c).1, Cert.ReferenceIdeal.GcnRef.ref_x m' c, e0, e1, e2, e3, e4, e5, e6, e7, e8, e9]
      refine gcnX2_congr (funext fun x => ?_) (funext fun x => ?_) (funext fun u => ?_) (ewCol_eq _) _ _ _ _ _ _ _
      · rw [srcOf_eq, gatherN_eq, Cert.KernelIdeal.GcnTake.takeN_eq x _ hs]
      · rw [gatherR_eq, Cert.KernelIdeal.GcnTake.takeR_eq x _ ht]
      · rw [dstOf_eq, scat_eq]
    · obtain ⟨e0, e1, e2, e3, e4, e5, e6, e7, e8, e9, e10⟩ := hagree c
      rw [(h c).2.1, Cert.ReferenceIdeal.GcnRef.ref_r m' c, e4, e7, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
